-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x3x4096 : Shape := ⟨3, ![8, 3, 4096]⟩
abbrev S8x4096x1 : Shape := ⟨3, ![8, 4096, 1]⟩
abbrev S1x1024x3 : Shape := ⟨3, ![1, 1024, 3]⟩
abbrev S1x3x1024 : Shape := ⟨3, ![1, 3, 1024]⟩
abbrev S1x1024x1 : Shape := ⟨3, ![1, 1024, 1]⟩
abbrev S1024x1 : Shape := ⟨2, ![1024, 1]⟩
abbrev S1024x3 : Shape := ⟨2, ![1024, 3]⟩
abbrev S3x1024 : Shape := ⟨2, ![3, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 15
  | .vmem => 14
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4096, .f32⟩
  | .hbm, ⟨3, _⟩ => ⟨S8x3x4096, .f32⟩
  | .hbm, ⟨4, _⟩ => ⟨S8x4096x1, .f32⟩
  | .hbm, ⟨5, _⟩ => ⟨S8x4096x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x1024, .f32⟩
  | .local _ .vmem, ⟨3, _⟩ => ⟨S1x3x1024, .f32⟩
  | .local _ .vmem, ⟨4, _⟩ => ⟨S1x1024x1, .f32⟩
  | .local _ .vmem, ⟨5, _⟩ => ⟨S1x1024x1, .f32⟩
  | .local _ .vmem, ⟨6, _⟩ => ⟨S1024x1, .f32⟩
  | .local _ .vmem, ⟨7, _⟩ => ⟨S1x1024x3, .f32⟩
  | .local _ .vmem, ⟨8, _⟩ => ⟨S1x1024x3, .f32⟩
  | .local _ .vmem, ⟨9, _⟩ => ⟨S1x3x1024, .f32⟩
  | .local _ .vmem, ⟨10, _⟩ => ⟨S1x3x1024, .f32⟩
  | .local _ .vmem, ⟨11, _⟩ => ⟨S1x1024x1, .f32⟩
  | .local _ .vmem, ⟨12, _⟩ => ⟨S1x1024x1, .f32⟩
  | .local _ .vmem, ⟨13, _⟩ => ⟨S1024x1, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v31 : BitVec 1 := Scalar.cmpi .eq arg2 c3_i32
  let v32 : BitVec 32 := Scalar.extui v31
  let c0_i32_15 : BitVec 32 := 0#32
  let v33 : BitVec 1 := Scalar.cmpi .ne v32 c0_i32_15
  v33

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v31 : BitVec 1 := Scalar.cmpi .eq arg2 c3_i32
  let v32 : BitVec 32 := Scalar.extui v31
  let c0_i32_15 : BitVec 32 := 0#32
  let v33 : BitVec 1 := Scalar.cmpi .ne v32 c0_i32_15
  v33

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x3x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  transposes_S8x4096x3_S8x3x4096_0_2_1 : S8x4096x3.Transposes [0, 2, 1] S8x3x4096
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  bitsLt_bf16_f32 : FTy.bits .bf16 < FTy.bits .f32
  reduces_S1024x3_S1024 : S1024x3.Reduces [1] S1024
  shapeCasts_S1024_S1024x1 : S1024.ShapeCasts S1024x1
  reduces_S3x1024_S1024 : S3x1024.Reduces [0] S1024
  shapeCasts_S1024_S1x1024 : S1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  reducesTo_S8x4096x1_S_d0_1_2 : S8x4096x1.ReducesTo [0, 1, 2] S_
  h_S_ : 0 < S_.numel
  dot_S1024x3_S3x1024_S1024x1024_1_0_0_1_n_n_wf : DotDims.WF S1024x3 S3x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S8x4096x3.size a
  hwx0_0 : ∀ i : grid0.Coords, EltTy.bits .f32 = 32 ∨ (Rect.block (s := S8x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S8x3x4096.size a
  hwx0_1 : ∀ i : grid0.Coords, EltTy.bits .f32 = 32 ∨ (Rect.block (s := S8x3x4096) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S8x4096x1.size a
  hwx0_2 : ∀ i : grid0.Coords, EltTy.bits .f32 = 32 ∨ (Rect.block (s := S8x4096x1) S1x1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x3.size a ≤ S8x4096x3.size a
  hwx1_0 : ∀ i : grid1.Coords, EltTy.bits .f32 = 32 ∨ (Rect.block (s := S8x4096x3) S1x1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x3x1024.size a ≤ S8x3x4096.size a
  hwx1_1 : ∀ i : grid1.Coords, EltTy.bits .f32 = 32 ∨ (Rect.block (s := S8x3x4096) S1x3x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1.size a ≤ S8x4096x1.size a
  hwx1_2 : ∀ i : grid1.Coords, EltTy.bits .f32 = 32 ∨ (Rect.block (s := S8x4096x1) S1x1024x1.size (cc1_transform_2 i) (hinb1_2 i)).WholeWords (EltTy.packing .f32)

variable [Facts₀]

def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S1x1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x3x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S_, .f32⟩
  | .hbm, ⟨24, _⟩ => ⟨S8x4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S_d0_1 : S8x4096.ReducesTo [0, 1] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Kernel.Body0.lean ====
/-
  The kernel body of the first nearest-neighbour call, run on whole staging buffers, in its three cases.

  The grid is (batch, row tile, column tile) = 8 × 4 × 4. At a point the body holds a [1024 × 3] block of the query
  cloud, a [3 × 1024] block of the transposed key cloud, and a [1024 × 1] running minimum kept in a scratch buffer
  across the four column tiles of a row tile. At column tile 0 the running minimum is first reset to +∞; at every
  column tile it becomes the elementwise minimum of itself and the row minima of this tile's clamped squared
  distances; at column tile 3 it is then copied into the output block. The three theorems say exactly this of the
  buffers' contents, one per case of the two conditions on the column-tile coordinate.
-/
import proofs.«150788_j62191126446336_1_alg».proof.Proof.Gen.Kernel.Launch
import proofs.«150788_j62191126446336_1_alg».proof.Proof.Gen.Kernel.Skeleton
import proofs.«150788_j62191126446336_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch of the body (the accumulator's reset) is taken exactly when the grid's last coordinate is 0. -/
abbrev cond0_0 (i : grid0.Coords) : Prop := (Scalar.cmpi .ne (Scalar.extui (Scalar.cmpi .eq (BitVec.ofNat 32 (i 2).val) 0#32)) 0#32) = 1#1
/-- The second branch (the accumulator copied to the output block) is taken exactly when it is 3. -/
abbrev cond0_1 (i : grid0.Coords) : Prop := k0_cond2 i = 1#1

set_option maxHeartbeats 1000000 in
/-- A point in the middle of a row of tiles (last coordinate 1 or 2): the accumulator, found at `xs`, is left at the
    elementwise minimum of `xs` and this tile's row minima; the output block is not touched. -/
theorem runB0 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x1 .f32) (harg5 : arg5.IsWhole) (arg6 : Memref sig .tc .vmem S1024x1 .f32) (harg6 : arg6.IsWhole)
    (hc0 : ¬cond0_0 i) (hc1 : ¬cond0_1 i)
    (x0 : Vec F S1x1024x3 .f32) (x1 : Vec F S1x3x1024 .f32) (xi2 : Vec F S1x1024x1 .f32) (xs : Vec F S1024x1 .f32) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs
        ∗ (iprop(owns (c : Thread nD τ) arg3 fullShare x0 ∗ owns (c : Thread nD τ) arg4 fullShare x1 ∗ owns (c : Thread nD τ) arg5 fullShare xi2 ∗ owns (c : Thread nD τ) arg6 fullShare (k0_pay2 x0 x1 xs)) -∗ K ⟨⟩))
      ⊢ wp frame (wpE (defs₀ (F := F)) Variants.none c none) E (cc0__min_sqdist_kernel i arg3 harg3 arg4 harg4 arg5 harg5 arg6 harg6) K := by
  have zeros2 : (![0, 0] : Fin 2 → Nat) = fun _ => 0 := by funext a; fin_cases a <;> rfl
  have zeros3 : (![0, 0, 0] : Fin 3 → Nat) = fun _ => 0 := by funext a; fin_cases a <;> rfl
  simp only [cc0__min_sqdist_kernel_eq_skeleton]; unfold cc0__min_sqdist_kernel_skel
  simp only [k0_part1_eq_skeleton]; unfold k0_part1_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [View.read_writes_eq_canon _ _ _ (fun y => ⟨_, List.mem_singleton_self _, View.mem_set_unit_zero zeros2 Facts₀.inb_S1024x1_S1024x1_0_0 y⟩), View.canon_unit_zero zeros2]
  simp only [View.readAt_eq_ld, hf0, hf1, hfs, View.ld_unit_zero (S := S1x1024x3) zeros3, View.ld_unit_zero (S := S1x3x1024) zeros3, View.ld_unit_zero (S := S1024x1) zeros2]

set_option maxHeartbeats 1000000 in
/-- The first tile of a row (last coordinate 0): the accumulator, whatever it held, is reset to +∞ and then left at
    this tile's row minima; the output block is not touched. -/
theorem runA0 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x1 .f32) (harg5 : arg5.IsWhole) (arg6 : Memref sig .tc .vmem S1024x1 .f32) (harg6 : arg6.IsWhole)
    (hc0 : cond0_0 i) (hc1 : ¬cond0_1 i)
    (x0 : Vec F S1x1024x3 .f32) (x1 : Vec F S1x3x1024 .f32) (xi2 : Vec F S1x1024x1 .f32) (E : Set ℕ) (K : PUnit → sProp 𝕄) :
    iprop(owns (c : Thread nD τ) arg3 fullShare x0 ∗ owns (c : Thread nD τ) arg4 fullShare x1 ∗ owns (c : Thread nD τ) arg5 fullShare xi2 ∗ (∃ d, owns (c : Thread nD τ) arg6 fullShare d)
        ∗ (iprop(owns (c : Thread nD τ) arg3 fullShare x0 ∗ owns (c : Thread nD τ) arg4 fullShare x1 ∗ owns (c : Thread nD τ) arg5 fullShare xi2 ∗ owns (c : Thread nD τ) arg6 fullShare (k0_pay2 x0 x1 (k0_pay1 (F := F)))) -∗ K ⟨⟩))
      ⊢ wp frame (wpE (defs₀ (F := F)) Variants.none c none) E (cc0__min_sqdist_kernel i arg3 harg3 arg4 harg4 arg5 harg5 arg6 harg6) K := by
  have zeros2 : (![0, 0] : Fin 2 → Nat) = fun _ => 0 := by funext a; fin_cases a <;> rfl
  have zeros3 : (![0, 0, 0] : Fin 3 → Nat) = fun _ => 0 := by funext a; fin_cases a <;> rfl
  simp only [cc0__min_sqdist_kernel_eq_skeleton]; unfold cc0__min_sqdist_kernel_skel
  simp only [k0_part1_eq_skeleton]; unfold k0_part1_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  rw [View.read_writes_eq_canon _ _ _ (fun y => ⟨_, List.mem_cons_self .., View.mem_set_unit_zero zeros2 Facts₀.inb_S1024x1_S1024x1_0_0 y⟩), View.canon_cons_unit_zero zeros2]
  simp only [View.readAt_eq_ld, hf0, hf1, View.ld_unit_zero (S := S1x1024x3) zeros3, View.ld_unit_zero (S := S1x3x1024) zeros3, View.readCov_unit_zero (S := S1024x1) _ zeros2]

set_option maxHeartbeats 1000000 in
/-- The last tile of a row (last coordinate 3): the accumulator, found at `xs`, is left at the minimum with this tile's
    row minima, and that value is stored, as one column, into the output block. -/
theorem runC0 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x1 .f32) (harg5 : arg5.IsWhole) (arg6 : Memref sig .tc .vmem S1024x1 .f32) (harg6 : arg6.IsWhole)
    (hc0 : ¬cond0_0 i) (hc1 : cond0_1 i)
    (x0 : Vec F S1x1024x3 .f32) (x1 : Vec F S1x3x1024 .f32) (xs : Vec F S1024x1 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k0_pay3 (k0_pay2 x0 x1 xs)) ∗ owns (c : Thread nD τ) arg6 fullShare (k0_pay2 x0 x1 xs)) -∗ K ⟨⟩))
      ⊢ wp frame (wpE (defs₀ (F := F)) Variants.none c none) E (cc0__min_sqdist_kernel i arg3 harg3 arg4 harg4 arg5 harg5 arg6 harg6) K := by
  have zeros2 : (![0, 0] : Fin 2 → Nat) = fun _ => 0 := by funext a; fin_cases a <;> rfl
  have zeros3 : (![0, 0, 0] : Fin 3 → Nat) = fun _ => 0 := by funext a; fin_cases a <;> rfl
  simp only [cc0__min_sqdist_kernel_eq_skeleton]; unfold cc0__min_sqdist_kernel_skel
  simp only [k0_part1_eq_skeleton]; unfold k0_part1_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [View.read_writes_eq_canon _ _ _ (fun y => ⟨_, List.mem_singleton_self _, View.mem_set_unit_zero zeros3 Facts₀.inb_S1x1024x1_S1x1024x1_0_0_0 y⟩), View.canon_unit_zero zeros3]
    simp only [View.readAt_eq_ld, hf0, hf1, hfs, View.ld_unit_zero (S := S1x1024x3) zeros3, View.ld_unit_zero (S := S1x3x1024) zeros3, View.ld_unit_zero (S := S1024x1) zeros2, View.readCov_unit_zero (S := S1024x1) _ zeros2]
  iexists _; isplitr
  swap; · iexact HS
  ipureintro
  sl_unfold_words
  rw [View.read_writes_eq_canon _ _ _ (fun y => ⟨_, List.mem_singleton_self _, View.mem_set_unit_zero zeros2 Facts₀.inb_S1024x1_S1024x1_0_0 y⟩), View.canon_unit_zero zeros2]
  simp only [View.readAt_eq_ld, hf0, hf1, hfs, View.ld_unit_zero (S := S1x1024x3) zeros3, View.ld_unit_zero (S := S1x3x1024) zeros3, View.ld_unit_zero (S := S1024x1) zeros2]

end Cert.Kernel.Hand
end
-- ==== Proof.Kernel.Scoped0.lean ====
/-
  The scoped buffers the first nearest-neighbour call does not stage through: its own running-minimum scratch, and
  seven buffers of the other call that ride along untouched. The class invariant of the region — every such buffer
  at some contents, and the generator register at some state — is split here into the scratch, the seven others and
  the register, and put back, so that the body's invariant can name the scratch's contents and nothing else.
-/
import proofs.«150788_j62191126446336_1_alg».proof.Proof.Gen.Kernel.Launch
import proofs.«150788_j62191126446336_1_alg».proof.Proof.Gen.Kernel.Skeleton
import proofs.«150788_j62191126446336_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The running-minimum scratch of the first call, as a whole memref. -/
abbrev scM0 : Memref sig .tc .vmem S1024x1 .f32 := Memref.whole cc0_scratch0

/-- The seven scoped buffers of the other call, each at some contents. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(((∃ d, owns (c : Thread nD τ) scM0 fullShare d) ∗ others0 (F := F) c) ∗ (∃ r, prngReg c r)) := by
  unfold Pipeline.ΦA; rw [scopedRest0_eq]; simp only [scM0, others0, owns_whole]; try rfl

/-- The invariant opened: the scratch at some contents, the seven others, the register. -/
theorem PhiA0_open (c : Dev nD) :
    (Pipeline.ΦA spec0 c : sProp 𝕄)
      ⊢ iprop(((∃ d, owns (c : Thread nD τ) scM0 fullShare d) ∗ others0 (F := F) c) ∗ (∃ r, prngReg c r)) :=
  Entails.of_eq (PhiA0_eq c)

/-- And closed again. -/
theorem PhiA0_close (c : Dev nD) :
    iprop(((∃ d, owns (c : Thread nD τ) scM0 fullShare d) ∗ others0 (F := F) c) ∗ (∃ r, prngReg c r))
      ⊢ (Pipeline.ΦA spec0 c : sProp 𝕄) :=
  Entails.of_eq (PhiA0_eq c).symm

end Cert.Kernel.Hand
end
-- ==== Proof.Kernel.Frame0.lean ====
/-
  The first nearest-neighbour call as a pipeline: its proof data and its body obligation, at any contents `V` of the
  TensorCore's buffers when the call is entered.

  A grid point `t` of 128 is (batch, row tile, column tile) with column tile `t mod 4`. The two input windows hold,
  at every point, the blocks of their arrays the index maps name (`iblk0`). The running minimum after point `t`
  (`acc0`) restarts from +∞ at column tile 0 and otherwise continues from the point before. The region's invariant
  (`PhiS0`) keeps the scratch buffer at that running minimum between points. The output window is stored only at
  column tile 3 — there it receives the running minimum as one column — and is handed back untouched elsewhere.
-/
import proofs.«150788_j62191126446336_1_alg».proof.Proof.Gen.Kernel.Launch
import proofs.«150788_j62191126446336_1_alg».proof.Proof.Gen.Kernel.Skeleton
import proofs.«150788_j62191126446336_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic
import proofs.«150788_j62191126446336_1_alg».proof.Proof.Kernel.Body0
import proofs.«150788_j62191126446336_1_alg».proof.Proof.Kernel.Scoped0
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions in closed form, and where the output window is idle -/

/-- The reset is taken at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)
/-- The copy to the output block is taken at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-- The input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
/-- Off the last column tile the output window is idle and is not written back. -/
theorem idleAt0_2 : ∀ t : Fin cfg0.N, ¬cond0_1 (grid0.coords t) → cfg0.idle 2 (grid0.coords t) = true :=
  (by decide +kernel : ∀ t : Fin grid0.N, ¬cond0_1 (grid0.coords t) → cfg0.idle 2 (grid0.coords t) = true)
theorem noFlush0_2 : ∀ t : Fin cfg0.N, ¬cond0_1 (grid0.coords t) → (cfg0.win 2).flush t = false :=
  (by decide +kernel : ∀ t : Fin grid0.N, ¬cond0_1 (grid0.coords t) → win0_2.flush t = false)
/-- At the last column tile it is live. -/
theorem liveAt0_2 : ∀ t : Fin cfg0.N, cond0_1 (grid0.coords t) → cfg0.idle 2 (grid0.coords t) = false :=
  (by decide +kernel : ∀ t : Fin grid0.N, cond0_1 (grid0.coords t) → cfg0.idle 2 (grid0.coords t) = false)

section AtEntry

-- the TensorCore's buffer contents when the call is entered
variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (an unfetched point has the
    block index of the point before), for any proof data over these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The running minimum, point by point -/

/-- What the scratch holds after the body at position `n`: at a first column tile the minimum of +∞ and this tile's
    row minima; otherwise the minimum of what the point before left and this tile's row minima. -/
def acc0 (c : Dev nD) : (n : ℕ) → n < cfg0.N → Vec F S1024x1 .f32
  | 0, hn => k0_pay2 (iblk0 V c 0 ⟨0, hn⟩) (iblk0 V c 1 ⟨0, hn⟩) (k0_pay1 (F := F))
  | n + 1, hn =>
    if (n + 1) % 4 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

/-- At a first column tile the running minimum restarts. -/
theorem acc0_reset (c : Dev nD) (t : Fin cfg0.N) (h0 : t.val % 4 = 0) :
    acc0 V c t.val t.isLt = k0_pay2 (iblk0 V c 0 t) (iblk0 V c 1 t) (k0_pay1 (F := F)) := by
  obtain ⟨n, hn⟩ := t
  cases n with
  | zero => rfl
  | succ n => exact if_pos h0

/-- Elsewhere it continues from the point before. -/
theorem acc0_step (c : Dev nD) (t : Fin cfg0.N) (h0 : ¬t.val % 4 = 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h0
  | succ n => exact if_neg h0

/-! ## The region's invariant -/

/-- Before position `n`: before the first point every scoped buffer at anything; afterwards the scratch at the running
    minimum the point before left, the other scoped buffers at anything, the generator register at some state. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ others0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (acc0 V c n hn) ∗ others0 (F := F) c) ∗ (∃ r, prngReg c r)) := rfl

theorem PhiS0_pos (c : Dev nD) (n : ℕ) (h : n ≤ cfg0.N) (hz : n ≠ 0) :
    PhiS0 V c n h = iprop((owns (c : Thread nD τ) scM0 fullShare (acc0 V c (n - 1) (by omega)) ∗ others0 (F := F) c) ∗ (∃ r, prngReg c r)) := by
  cases n with
  | zero => exact absurd rfl hz
  | succ n => rfl

/-! ## The proof data -/

/-- The arrays as the call finds them; after the body each input's buffer at its block, the output's at the running
    minimum as one column (read only where it is stored: the last column tiles); the invariant `PhiS0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; the column tile says which of the three cases the
    point is in; the invariant hands the body the scratch at the running minimum the point before left (at anything
    before the first point) and takes it back at this point's; the output buffer is stored at the last column tile and
    handed back as found elsewhere; nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 128 := lt_of_lt_of_eq t.isLt (show cfg0.N = 128 from N_0)
  by_cases h0 : t.val % 4 = 0
  · have hc0 : cond0_0 (grid0.coords t) := (hcond0_0 t).mpr h0
    have hc1 : ¬cond0_1 (grid0.coords t) := fun h => by have := (hcond0_1 t).mp h; omega
    rw [Dat.leavesExact_idle (dat0 V c) 2 t (idleAt0_2 t hc1) (noFlush0_2 t hc1)]
    rw [acc0_reset V c t h0]
    by_cases hz : t.val = 0
    · rw [PhiS0_castSucc V c t, PhiS0_zero V c _ _ hz]
      refine (sep_mono (PhiA0_open c) .rfl).trans ?_
      iintro ⟨⟨⟨HS0, Hoth⟩, Hg⟩, Ho, ⟨%d0, H0⟩, ⟨%d1, H1⟩, ⟨%d2, H2⟩⟩
      iapply (runA0 c (grid0.coords t) _ _ _ _ _ _ _ _ hc0 hc1 (iblk0 V c 0 t) (iblk0 V c 1 t) _ Set.univ _)
      isplitl [H0]; · iexact H0
      isplitl [H1]; · iexact H1
      isplitl [H2]; · iexact H2
      isplitl [HS0]; · iexact HS0
      iintro ⟨H0, H1, H2, HS0⟩
      isplitl [HS0 Hoth Hg]
      · isplitl [HS0 Hoth]
        · isplitl [HS0]; · iexact HS0
          iexact Hoth
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hoth⟩, Hg⟩, Ho, ⟨%d0, H0⟩, ⟨%d1, H1⟩, ⟨%d2, H2⟩⟩
      iapply (runA0 c (grid0.coords t) _ _ _ _ _ _ _ _ hc0 hc1 (iblk0 V c 0 t) (iblk0 V c 1 t) _ Set.univ _)
      isplitl [H0]; · iexact H0
      isplitl [H1]; · iexact H1
      isplitl [H2]; · iexact H2
      isplitl [HS0]; · iexists _; iexact HS0
      iintro ⟨H0, H1, H2, HS0⟩
      isplitl [HS0 Hoth Hg]
      · isplitl [HS0 Hoth]
        · isplitl [HS0]; · iexact HS0
          iexact Hoth
        iexact Hg
      isplitl [Ho]; · iexact Ho
      isplitl [H0]; · iexact H0
      isplitl [H1]; · iexact H1
      iexists _; iexact H2
  · have hc0 : ¬cond0_0 (grid0.coords t) := fun h => h0 ((hcond0_0 t).mp h)
    have hz : t.val ≠ 0 := fun e => h0 (by rw [e])
    rw [acc0_step V c t h0]
    rw [PhiS0_castSucc V c t, PhiS0_pos V c _ _ hz]
    by_cases h1 : t.val % 4 = 3
    · have hc1 : cond0_1 (grid0.coords t) := (hcond0_1 t).mpr h1
      rw [show (dat0 V c).leavesExact 2 t = owns (c : Thread nD τ) (st0_2 t) fullShare ((dat0 V c).after 2 t) from by
        unfold Dat.leavesExact; rw [liveAt0_2 t hc1], after0_2, acc0_step V c t h0]
      iintro ⟨⟨⟨HS0, Hoth⟩, Hg⟩, Ho, ⟨%d0, H0⟩, ⟨%d1, H1⟩, ⟨%d2, H2⟩⟩
      iapply (runC0 c (grid0.coords t) _ _ _ _ _ _ _ _ hc0 hc1 (iblk0 V c 0 t) (iblk0 V c 1 t) _ Set.univ _)
      isplitl [H0]; · iexact H0
      isplitl [H1]; · iexact H1
      isplitl [H2]; · iexists _; iexact H2
      isplitl [HS0]; · iexact HS0
      iintro ⟨H0, H1, H2, HS0⟩
      isplitl [HS0 Hoth Hg]
      · isplitl [HS0 Hoth]
        · isplitl [HS0]; · iexact HS0
          iexact Hoth
        iexact Hg
      isplitl [Ho]; · iexact Ho
      isplitl [H0]; · iexact H0
      isplitl [H1]; · iexact H1
      iexact H2
    · have hc1 : ¬cond0_1 (grid0.coords t) := fun h => h1 ((hcond0_1 t).mp h)
      rw [Dat.leavesExact_idle (dat0 V c) 2 t (idleAt0_2 t hc1) (noFlush0_2 t hc1)]
      iintro ⟨⟨⟨HS0, Hoth⟩, Hg⟩, Ho, ⟨%d0, H0⟩, ⟨%d1, H1⟩, ⟨%d2, H2⟩⟩
      iapply (runB0 c (grid0.coords t) _ _ _ _ _ _ _ _ hc0 hc1 (iblk0 V c 0 t) (iblk0 V c 1 t) _ _ Set.univ _)
      isplitl [H0]; · iexact H0
      isplitl [H1]; · iexact H1
      isplitl [H2]; · iexact H2
      isplitl [HS0]; · iexact HS0
      iintro ⟨H0, H1, H2, HS0⟩
      isplitl [HS0 Hoth Hg]
      · isplitl [HS0 Hoth]
        · isplitl [HS0]; · iexact HS0
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point the invariant gives the class invariant back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  refine BIBase.Entails.trans ?_ (PhiA0_close c)
  iintro ⟨⟨HS0, Hoth⟩, Hg⟩
  isplitl [HS0 Hoth]
  · isplitl [HS0]; · iexists _; iexact HS0
    iexact Hoth
  iexact Hg

/-- The same after the last point. -/
theorem Phi_last0 (c : Dev nD) : (dat0 V c).Φ (Fin.last cfg0.N) ⊢ Pipeline.ΦA spec0 c :=
  Phi_out0 V c _ (by rw [Fin.val_last]; have : cfg0.N = 128 := N_0; omega)

end AtEntry

end Cert.Kernel.Hand
end
-- ==== Proof.Kernel.Body1.lean ====
/-
  The kernel body of the second nearest-neighbour call, run on whole staging buffers, in its three cases.

  The grid is (batch, row tile, column tile) = 8 × 4 × 4. At a point the body holds a [1024 × 3] block of the query
  cloud, a [3 × 1024] block of the transposed key cloud, and a [1024 × 1] running minimum kept in a scratch buffer
  across the four column tiles of a row tile. At column tile 0 the running minimum is first reset to +∞; at every
  column tile it becomes the elementwise minimum of itself and the row minima of this tile's clamped squared
  distances; at column tile 3 it is then copied into the output block. The three theorems say exactly this of the
  buffers' contents, one per case of the two conditions on the column-tile coordinate.
-/
import proofs.«150788_j62191126446336_1_alg».proof.Proof.Gen.Kernel.Launch
import proofs.«150788_j62191126446336_1_alg».proof.Proof.Gen.Kernel.Skeleton
import proofs.«150788_j62191126446336_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch of the body (the accumulator's reset) is taken exactly when the grid's last coordinate is 0. -/
abbrev cond1_0 (i : grid1.Coords) : Prop := (Scalar.cmpi .ne (Scalar.extui (Scalar.cmpi .eq (BitVec.ofNat 32 (i 2).val) 0#32)) 0#32) = 1#1
/-- The second branch (the accumulator copied to the output block) is taken exactly when it is 3. -/
abbrev cond1_1 (i : grid1.Coords) : Prop := k1_cond2 i = 1#1

set_option maxHeartbeats 1000000 in
/-- A point in the middle of a row of tiles (last coordinate 1 or 2): the accumulator, found at `xs`, is left at the
    elementwise minimum of `xs` and this tile's row minima; the output block is not touched. -/
theorem runB1 (c : Dev nD) (i : grid1.Coords) (arg3 : Memref sig .tc .vmem S1x1024x3 .f32) (harg3 : arg3.IsWhole) (arg4 : Memref sig .tc .vmem S1x3x1024 .f32) (harg4 : arg4.IsWhole) (arg5 : Memref sig .tc .vmem S1x1024x1 .f32) (harg5 : arg5.IsWhole) (arg6 : Memref sig .tc .vmem S1024x1 .f32) (harg6 : arg6.IsWhole)
    (hc0 : ¬cond1_0 i) (hc1 : ¬cond1_1 i)
    (x0 : Vec F S1x1024x3 .f32) (x1 : Vec F S1x3x1024 .f32) (xi2 : Vec F S1x1024x1 .f32) (xs : Vec F S1024x1 .f32) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs
        ∗ (iprop(owns (c : Thread nD τ) arg3 fullShare x0 ∗ owns (c : Thread nD τ) arg4 fullShare x1 ∗ owns (c : Thread nD τ) arg5 fullShare xi2 ∗ owns (c : Thread nD τ) arg6 fullShare (k1_pay2 x0 x1 xs)) -∗ K ⟨⟩))
      ⊢ wp frame (wpE (defs₀ (F := F)) Variants.none c none) E (cc1__min_sqdist_kernel i arg3 harg3 arg4 harg4 arg5 harg5 arg6 harg6) K := by
  have zeros2 : (![0, 0] : Fin 2 → Nat) = fun _ => 0 := by funext a; fin_cases a <;> rfl
  have zeros3 : (![0, 0, 0] : Fin 3 → Nat) = fun _ => 0 := by funext a; fin_cases a <;> rfl
  simp only [cc1__min_sqdist_kernel_eq_skeleton]; unfold cc1__min_sqdist_kernel_skel
  simp only [k1_part1_eq_skeleton]; unfold k1_part1_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [View.read_writes_eq_canon _ _ _ (fun y => ⟨_, List.mem_singleton_self _, View.mem_set_unit_zero zeros2 Facts₀.inb_S1024x1_S1024x1_0_0 y⟩), View.canon_unit_zero zeros2]
  simp only [View.readAt_eq_ld, hf0, hf1, hfs, View.ld_unit_zero (S := S1x1024x3) zeros3, View.ld_unit_zero (S := S1x3x1024) zeros3, View.ld_unit_zero (S := S1024x1) zeros2]

set_option maxHeartbeats 1000000 in
/-- The first tile of a row (last coordinate 0): the accumulator, whatever it held, is reset to +∞ and then left at
    this tile's row minima; the output block is not touched. -/
theorem runA1 (c : Dev nD) (i : grid1.Coords) (arg3 : Memref sig .tc .vmem S1x1024x3 .f32) (harg3 : arg3.IsWhole) (arg4 : Memref sig .tc .vmem S1x3x1024 .f32) (harg4 : arg4.IsWhole) (arg5 : Memref sig .tc .vmem S1x1024x1 .f32) (harg5 : arg5.IsWhole) (arg6 : Memref sig .tc .vmem S1024x1 .f32) (harg6 : arg6.IsWhole)
    (hc0 : cond1_0 i) (hc1 : ¬cond1_1 i)
    (x0 : Vec F S1x1024x3 .f32) (x1 : Vec F S1x3x1024 .f32) (xi2 : Vec F S1x1024x1 .f32) (E : Set ℕ) (K : PUnit → sProp 𝕄) :
    iprop(owns (c : Thread nD τ) arg3 fullShare x0 ∗ owns (c : Thread nD τ) arg4 fullShare x1 ∗ owns (c : Thread nD τ) arg5 fullShare xi2 ∗ (∃ d, owns (c : Thread nD τ) arg6 fullShare d)
        ∗ (iprop(owns (c : Thread nD τ) arg3 fullShare x0 ∗ owns (c : Thread nD τ) arg4 fullShare x1 ∗ owns (c : Thread nD τ) arg5 fullShare xi2 ∗ owns (c : Thread nD τ) arg6 fullShare (k1_pay2 x0 x1 (k1_pay1 (F := F)))) -∗ K ⟨⟩))
      ⊢ wp frame (wpE (defs₀ (F := F)) Variants.none c none) E (cc1__min_sqdist_kernel i arg3 harg3 arg4 harg4 arg5 harg5 arg6 harg6) K := by
  have zeros2 : (![0, 0] : Fin 2 → Nat) = fun _ => 0 := by funext a; fin_cases a <;> rfl
  have zeros3 : (![0, 0, 0] : Fin 3 → Nat) = fun _ => 0 := by funext a; fin_cases a <;> rfl
  simp only [cc1__min_sqdist_kernel_eq_skeleton]; unfold cc1__min_sqdist_kernel_skel
  simp only [k1_part1_eq_skeleton]; unfold k1_part1_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  rw [View.read_writes_eq_canon _ _ _ (fun y => ⟨_, List.mem_cons_self .., View.mem_set_unit_zero zeros2 Facts₀.inb_S1024x1_S1024x1_0_0 y⟩), View.canon_cons_unit_zero zeros2]
  simp only [View.readAt_eq_ld, hf0, hf1, View.ld_unit_zero (S := S1x1024x3) zeros3, View.ld_unit_zero (S := S1x3x1024) zeros3, View.readCov_unit_zero (S := S1024x1) _ zeros2]

set_option maxHeartbeats 1000000 in
/-- The last tile of a row (last coordinate 3): the accumulator, found at `xs`, is left at the minimum with this tile's
    row minima, and that value is stored, as one column, into the output block. -/
theorem runC1 (c : Dev nD) (i : grid1.Coords) (arg3 : Memref sig .tc .vmem S1x1024x3 .f32) (harg3 : arg3.IsWhole) (arg4 : Memref sig .tc .vmem S1x3x1024 .f32) (harg4 : arg4.IsWhole) (arg5 : Memref sig .tc .vmem S1x1024x1 .f32) (harg5 : arg5.IsWhole) (arg6 : Memref sig .tc .vmem S1024x1 .f32) (harg6 : arg6.IsWhole)
    (hc0 : ¬cond1_0 i) (hc1 : cond1_1 i)
    (x0 : Vec F S1x1024x3 .f32) (x1 : Vec F S1x3x1024 .f32) (xs : Vec F S1024x1 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k1_pay3 (k1_pay2 x0 x1 xs)) ∗ owns (c : Thread nD τ) arg6 fullShare (k1_pay2 x0 x1 xs)) -∗ K ⟨⟩))
      ⊢ wp frame (wpE (defs₀ (F := F)) Variants.none c none) E (cc1__min_sqdist_kernel i arg3 harg3 arg4 harg4 arg5 harg5 arg6 harg6) K := by
  have zeros2 : (![0, 0] : Fin 2 → Nat) = fun _ => 0 := by funext a; fin_cases a <;> rfl
  have zeros3 : (![0, 0, 0] : Fin 3 → Nat) = fun _ => 0 := by funext a; fin_cases a <;> rfl
  simp only [cc1__min_sqdist_kernel_eq_skeleton]; unfold cc1__min_sqdist_kernel_skel
  simp only [k1_part1_eq_skeleton]; unfold k1_part1_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [View.read_writes_eq_canon _ _ _ (fun y => ⟨_, List.mem_singleton_self _, View.mem_set_unit_zero zeros3 Facts₀.inb_S1x1024x1_S1x1024x1_0_0_0 y⟩), View.canon_unit_zero zeros3]
    simp only [View.readAt_eq_ld, hf0, hf1, hfs, View.ld_unit_zero (S := S1x1024x3) zeros3, View.ld_unit_zero (S := S1x3x1024) zeros3, View.ld_unit_zero (S := S1024x1) zeros2, View.readCov_unit_zero (S := S1024x1) _ zeros2]
  iexists _; isplitr
  swap; · iexact HS
  ipureintro
  sl_unfold_words
  rw [View.read_writes_eq_canon _ _ _ (fun y => ⟨_, List.mem_singleton_self _, View.mem_set_unit_zero zeros2 Facts₀.inb_S1024x1_S1024x1_0_0 y⟩), View.canon_unit_zero zeros2]
  simp only [View.readAt_eq_ld, hf0, hf1, hfs, View.ld_unit_zero (S := S1x1024x3) zeros3, View.ld_unit_zero (S := S1x3x1024) zeros3, View.ld_unit_zero (S := S1024x1) zeros2]

end Cert.Kernel.Hand
end
-- ==== Proof.Kernel.Scoped1.lean ====
/-
  The scoped buffers the second nearest-neighbour call does not stage through: its own running-minimum scratch, and
  seven buffers of the other call that ride along untouched. The class invariant of the region — every such buffer
  at some contents, and the generator register at some state — is split here into the scratch, the seven others and
  the register, and put back, so that the body's invariant can name the scratch's contents and nothing else.
-/
import proofs.«150788_j62191126446336_1_alg».proof.Proof.Gen.Kernel.Launch
import proofs.«150788_j62191126446336_1_alg».proof.Proof.Gen.Kernel.Skeleton
import proofs.«150788_j62191126446336_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The running-minimum scratch of the second call, as a whole memref. -/
abbrev scM1 : Memref sig .tc .vmem S1024x1 .f32 := Memref.whole cc1_scratch0

/-- The seven scoped buffers of the other call, each at some contents. -/
abbrev others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class invariant with its buffers listed in the order the signature lists them: the scratch comes last. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [scM1, owns_whole]; try rfl

/-- The invariant opened: the scratch at some contents, the seven others, the register. -/
theorem PhiA1_open (c : Dev nD) :
    (Pipeline.ΦA spec1 c : sProp 𝕄)
      ⊢ iprop(((∃ d, owns (c : Thread nD τ) scM1 fullShare d) ∗ others1 (F := F) c) ∗ (∃ r, prngReg c r)) := by
  rw [PhiA1_eq]
  iintro ⟨⟨A0, A1, A2, A3, A4, A5, A6, HS⟩, Hg⟩
  isplitl [A0 A1 A2 A3 A4 A5 A6 HS]
  · isplitl [HS]; · iexact HS
    isplitl [A0]; · iexact A0
    isplitl [A1]; · iexact A1
    isplitl [A2]; · iexact A2
    isplitl [A3]; · iexact A3
    isplitl [A4]; · iexact A4
    isplitl [A5]; · iexact A5
    iexact A6
  iexact Hg

/-- And closed again. -/
theorem PhiA1_close (c : Dev nD) :
    iprop(((∃ d, owns (c : Thread nD τ) scM1 fullShare d) ∗ others1 (F := F) c) ∗ (∃ r, prngReg c r))
      ⊢ (Pipeline.ΦA spec1 c : sProp 𝕄) := by
  rw [PhiA1_eq]
  iintro ⟨⟨HS, A0, A1, A2, A3, A4, A5, A6⟩, Hg⟩
  isplitl [A0 A1 A2 A3 A4 A5 A6 HS]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact HS
  iexact Hg

end Cert.Kernel.Hand
end
-- ==== Proof.Kernel.Frame1.lean ====
/-
  The second nearest-neighbour call as a pipeline: its proof data and its body obligation, at any contents `V` of the
  TensorCore's buffers when the call is entered.

  A grid point `t` of 128 is (batch, row tile, column tile) with column tile `t mod 4`. The two input windows hold,
  at every point, the blocks of their arrays the index maps name (`iblk1`). The running minimum after point `t`
  (`acc1`) restarts from +∞ at column tile 0 and otherwise continues from the point before. The region's invariant
  (`PhiS1`) keeps the scratch buffer at that running minimum between points. The output window is stored only at
  column tile 3 — there it receives the running minimum as one column — and is handed back untouched elsewhere.
-/
import proofs.«150788_j62191126446336_1_alg».proof.Proof.Gen.Kernel.Launch
import proofs.«150788_j62191126446336_1_alg».proof.Proof.Gen.Kernel.Skeleton
import proofs.«150788_j62191126446336_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic
import proofs.«150788_j62191126446336_1_alg».proof.Proof.Kernel.Body1
import proofs.«150788_j62191126446336_1_alg».proof.Proof.Kernel.Scoped1
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions in closed form, and where the output window is idle -/

/-- The reset is taken at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- The copy to the output block is taken at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
/-- Off the last column tile the output window is idle and is not written back. -/
theorem idleAt1_2 : ∀ t : Fin cfg1.N, ¬cond1_1 (grid1.coords t) → cfg1.idle 2 (grid1.coords t) = true :=
  (by decide +kernel : ∀ t : Fin grid1.N, ¬cond1_1 (grid1.coords t) → cfg1.idle 2 (grid1.coords t) = true)
theorem noFlush1_2 : ∀ t : Fin cfg1.N, ¬cond1_1 (grid1.coords t) → (cfg1.win 2).flush t = false :=
  (by decide +kernel : ∀ t : Fin grid1.N, ¬cond1_1 (grid1.coords t) → win1_2.flush t = false)
/-- At the last column tile it is live. -/
theorem liveAt1_2 : ∀ t : Fin cfg1.N, cond1_1 (grid1.coords t) → cfg1.idle 2 (grid1.coords t) = false :=
  (by decide +kernel : ∀ t : Fin grid1.N, cond1_1 (grid1.coords t) → cfg1.idle 2 (grid1.coords t) = false)

section AtEntry

-- the TensorCore's buffer contents when the call is entered
variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (an unfetched point has the
    block index of the point before), for any proof data over these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The running minimum, point by point -/

/-- What the scratch holds after the body at position `n`: at a first column tile the minimum of +∞ and this tile's
    row minima; otherwise the minimum of what the point before left and this tile's row minima. -/
def acc1 (c : Dev nD) : (n : ℕ) → n < cfg1.N → Vec F S1024x1 .f32
  | 0, hn => k1_pay2 (iblk1 V c 0 ⟨0, hn⟩) (iblk1 V c 1 ⟨0, hn⟩) (k1_pay1 (F := F))
  | n + 1, hn =>
    if (n + 1) % 4 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

/-- At a first column tile the running minimum restarts. -/
theorem acc1_reset (c : Dev nD) (t : Fin cfg1.N) (h0 : t.val % 4 = 0) :
    acc1 V c t.val t.isLt = k1_pay2 (iblk1 V c 0 t) (iblk1 V c 1 t) (k1_pay1 (F := F)) := by
  obtain ⟨n, hn⟩ := t
  cases n with
  | zero => rfl
  | succ n => exact if_pos h0

/-- Elsewhere it continues from the point before. -/
theorem acc1_step (c : Dev nD) (t : Fin cfg1.N) (h0 : ¬t.val % 4 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n => exact if_neg h0

/-! ## The region's invariant -/

/-- Before position `n`: before the first point every scoped buffer at anything; afterwards the scratch at the running
    minimum the point before left, the other scoped buffers at anything, the generator register at some state. -/
def PhiS1 (c : Dev nD) : (n : ℕ) → n ≤ cfg1.N → sProp 𝕄
  | 0, _ => Pipeline.ΦA spec1 c
  | n + 1, hn => iprop((owns (c : Thread nD τ) scM1 fullShare (acc1 V c n hn) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (acc1 V c n hn) ∗ others1 (F := F) c) ∗ (∃ r, prngReg c r)) := rfl

theorem PhiS1_pos (c : Dev nD) (n : ℕ) (h : n ≤ cfg1.N) (hz : n ≠ 0) :
    PhiS1 V c n h = iprop((owns (c : Thread nD τ) scM1 fullShare (acc1 V c (n - 1) (by omega)) ∗ others1 (F := F) c) ∗ (∃ r, prngReg c r)) := by
  cases n with
  | zero => exact absurd rfl hz
  | succ n => rfl

/-! ## The proof data -/

/-- The arrays as the call finds them; after the body each input's buffer at its block, the output's at the running
    minimum as one column (read only where it is stored: the last column tiles); the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the column tile says which of the three cases the
    point is in; the invariant hands the body the scratch at the running minimum the point before left (at anything
    before the first point) and takes it back at this point's; the output buffer is stored at the last column tile and
    handed back as found elsewhere; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 128 := lt_of_lt_of_eq t.isLt (show cfg1.N = 128 from N_1)
  by_cases h0 : t.val % 4 = 0
  · have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1)]
    rw [acc1_reset V c t h0]
    by_cases hz : t.val = 0
    · rw [PhiS1_castSucc V c t, PhiS1_zero V c _ _ hz]
      refine (sep_mono (PhiA1_open c) .rfl).trans ?_
      iintro ⟨⟨⟨HS0, Hoth⟩, Hg⟩, Ho, ⟨%d0, H0⟩, ⟨%d1, H1⟩, ⟨%d2, H2⟩⟩
      iapply (runA1 c (grid1.coords t) _ _ _ _ _ _ _ _ hc0 hc1 (iblk1 V c 0 t) (iblk1 V c 1 t) _ Set.univ _)
      isplitl [H0]; · iexact H0
      isplitl [H1]; · iexact H1
      isplitl [H2]; · iexact H2
      isplitl [HS0]; · iexact HS0
      iintro ⟨H0, H1, H2, HS0⟩
      isplitl [HS0 Hoth Hg]
      · isplitl [HS0 Hoth]
        · isplitl [HS0]; · iexact HS0
          iexact Hoth
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hoth⟩, Hg⟩, Ho, ⟨%d0, H0⟩, ⟨%d1, H1⟩, ⟨%d2, H2⟩⟩
      iapply (runA1 c (grid1.coords t) _ _ _ _ _ _ _ _ hc0 hc1 (iblk1 V c 0 t) (iblk1 V c 1 t) _ Set.univ _)
      isplitl [H0]; · iexact H0
      isplitl [H1]; · iexact H1
      isplitl [H2]; · iexact H2
      isplitl [HS0]; · iexists _; iexact HS0
      iintro ⟨H0, H1, H2, HS0⟩
      isplitl [HS0 Hoth Hg]
      · isplitl [HS0 Hoth]
        · isplitl [HS0]; · iexact HS0
          iexact Hoth
        iexact Hg
      isplitl [Ho]; · iexact Ho
      isplitl [H0]; · iexact H0
      isplitl [H1]; · iexact H1
      iexists _; iexact H2
  · have hc0 : ¬cond1_0 (grid1.coords t) := fun h => h0 ((hcond1_0 t).mp h)
    have hz : t.val ≠ 0 := fun e => h0 (by rw [e])
    rw [acc1_step V c t h0]
    rw [PhiS1_castSucc V c t, PhiS1_pos V c _ _ hz]
    by_cases h1 : t.val % 4 = 3
    · have hc1 : cond1_1 (grid1.coords t) := (hcond1_1 t).mpr h1
      rw [show (dat1 V c).leavesExact 2 t = owns (c : Thread nD τ) (st1_2 t) fullShare ((dat1 V c).after 2 t) from by
        unfold Dat.leavesExact; rw [liveAt1_2 t hc1], after1_2, acc1_step V c t h0]
      iintro ⟨⟨⟨HS0, Hoth⟩, Hg⟩, Ho, ⟨%d0, H0⟩, ⟨%d1, H1⟩, ⟨%d2, H2⟩⟩
      iapply (runC1 c (grid1.coords t) _ _ _ _ _ _ _ _ hc0 hc1 (iblk1 V c 0 t) (iblk1 V c 1 t) _ Set.univ _)
      isplitl [H0]; · iexact H0
      isplitl [H1]; · iexact H1
      isplitl [H2]; · iexists _; iexact H2
      isplitl [HS0]; · iexact HS0
      iintro ⟨H0, H1, H2, HS0⟩
      isplitl [HS0 Hoth Hg]
      · isplitl [HS0 Hoth]
        · isplitl [HS0]; · iexact HS0
          iexact Hoth
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨⟨HS0, Hoth⟩, Hg⟩, Ho, ⟨%d0, H0⟩, ⟨%d1, H1⟩, ⟨%d2, H2⟩⟩
      iapply (runB1 c (grid1.coords t) _ _ _ _ _ _ _ _ hc0 hc1 (iblk1 V c 0 t) (iblk1 V c 1 t) _ _ Set.univ _)
      isplitl [H0]; · iexact H0
      isplitl [H1]; · iexact H1
      isplitl [H2]; · iexact H2
      isplitl [HS0]; · iexact HS0
      iintro ⟨H0, H1, H2, HS0⟩
      isplitl [HS0 Hoth Hg]
      · isplitl [HS0 Hoth]
        · isplitl [HS0]; · iexact HS0
          iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point the invariant gives the class invariant back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine BIBase.Entails.trans ?_ (PhiA1_close c)
  iintro ⟨⟨HS0, Hoth⟩, Hg⟩
  isplitl [HS0 Hoth]
  · isplitl [HS0]; · iexists _; iexact HS0
    iexact Hoth
  iexact Hg

/-- The same after the last point. -/
theorem Phi_last1 (c : Dev nD) : (dat1 V c).Φ (Fin.last cfg1.N) ⊢ Pipeline.ΦA spec1 c :=
  Phi_out1 V c _ (by rw [Fin.val_last]; have : cfg1.N = 128 := N_1; omega)

end AtEntry

end Cert.Kernel.Hand
end
-- ==== Proof.Kernel.Run.lean ====
/-
  The program's run from launch to return, segment by segment.

  @main is: two transposes on the host; the first nearest-neighbour call; the second; nine scalar operations on
  the host (two totals, two quotients, a sum). Between these four segments the TensorCore's unscoped buffers are held
  whole at named contents: `W0` the launch memory, `W1` after the transposes, `W2` with the first call's arrays at what
  its write-backs leave, `W3` likewise after the second call, `W4` after the scalar operations. The theorem
  `run_main` says every weakly fair execution terminates and ends with every unscoped buffer at `W4`; the two
  argument arrays are read back through the boundaries to the launch memory.
-/
import proofs.«150788_j62191126446336_1_alg».proof.Proof.Gen.Kernel.Launch
import proofs.«150788_j62191126446336_1_alg».proof.Proof.Gen.Kernel.Skeleton
import proofs.«150788_j62191126446336_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic
import proofs.«150788_j62191126446336_1_alg».proof.Proof.Gen.Kernel.Regions
import proofs.«150788_j62191126446336_1_alg».proof.Proof.Kernel.Frame0
import proofs.«150788_j62191126446336_1_alg».proof.Proof.Kernel.Frame1
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the two transposes (the first call's entry). -/
abbrev W1 : Dev nD → Valuation τ sig (Elt F) := fun c => StableHlo.after hostOps0 (W0 m c)
/-- The same read at the TensorCore's references. -/
abbrev B1 : (c : Dev nD) → (b : Ref sig .tc) → Buf (Elt F) ((c : Thread nD τ).loc b) := fun c b => W1 m c b
/-- At the first call's exit: its arrays at what the pipeline leaves, every other buffer as entered. -/
def W2 (c : Dev nD) : Valuation τ sig (Elt F) :=
  Pipeline.withArrays spec0 c (W1 m c) fun w => (dat0 (B1 m) c).arrAt w cfg0.N
theorem W2_arr (c : Dev nD) (w : Fin cfg0.W) :
    W2 m c (Proc.devRef .tc (Pipeline.arrRef spec0 w)) = (dat0 (B1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev B2 : (c : Dev nD) → (b : Ref sig .tc) → Buf (Elt F) ((c : Thread nD τ).loc b) := fun c b => W2 m c b
theorem hF0 (c : Dev nD) (w : Fin cfg0.W) : (dat0 (B1 m) c).arrAt w cfg0.N = B2 m c (Pipeline.arrRef spec0 w) :=
  (W2_arr m c w).symm
theorem hrest0 (c : Dev nD) : ∀ b, b ∉ Finset.univ.image (Pipeline.arrRef spec0) → B2 m c b = B1 m c b :=
  fun b hb => W2_of_ne m c b fun w e => hb (Finset.mem_image.mpr ⟨w, Finset.mem_univ _, e⟩)

/-- At the second call's exit. -/
def W3 (c : Dev nD) : Valuation τ sig (Elt F) :=
  Pipeline.withArrays spec1 c (W2 m c) fun w => (dat1 (B2 m) c).arrAt w cfg1.N
theorem W3_arr (c : Dev nD) (w : Fin cfg1.W) :
    W3 m c (Proc.devRef .tc (Pipeline.arrRef spec1 w)) = (dat1 (B2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev B3 : (c : Dev nD) → (b : Ref sig .tc) → Buf (Elt F) ((c : Thread nD τ).loc b) := fun c b => W3 m c b
theorem hF1 (c : Dev nD) (w : Fin cfg1.W) : (dat1 (B2 m) c).arrAt w cfg1.N = B3 m c (Pipeline.arrRef spec1 w) :=
  (W3_arr m c w).symm
theorem hrest1 (c : Dev nD) : ∀ b, b ∉ Finset.univ.image (Pipeline.arrRef spec1) → B3 m c b = B2 m c b :=
  fun b hb => W3_of_ne m c b fun w e => hb (Finset.mem_image.mpr ⟨w, Finset.mem_univ _, e⟩)

/-- After the nine scalar operations (the return). -/
abbrev W4 : Dev nD → Valuation τ sig (Elt F) := fun c => StableHlo.after hostOps2 (W3 m c)

/-- The transposes write only their own results; -/
theorem W1_of (c : Dev nD) (r : Ref sig .tc) (h : r ∉ hostOps0_W) : W1 m c r = W0 m c r :=
  StableHlo.after_of_writes_sub hostOps0 _ hostOps0_writes h
/-- the scalar operations likewise. -/
theorem W4_of (c : Dev nD) (r : Ref sig .tc) (h : r ∉ hostOps2_W) : W4 m c r = W3 m c r :=
  StableHlo.after_of_writes_sub hostOps2 _ hostOps2_writes h

/-! ### The arguments end as launched: no host operation writes one, and a call reads it through an input window or not at all -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of m c main_arg0 (by decide)
    _ = W2 m c (Proc.devRef .tc main_arg0) := W3_of_ne m c main_arg0 (by decide)
    _ = W1 m c (Proc.devRef .tc main_arg0) := (W2_arr m c 0).trans (((dat0 (B1 m) c).arrAt_in 0 rfl _).trans (A_eq0 (B1 m) c 0))
    _ = W0 m c (Proc.devRef .tc main_arg0) := W1_of m c main_arg0 (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of m c main_arg1 (by decide)
    _ = W2 m c (Proc.devRef .tc main_arg1) := (W3_arr m c 0).trans (((dat1 (B2 m) c).arrAt_in 0 rfl _).trans (A_eq1 (B2 m) c 0))
    _ = W1 m c (Proc.devRef .tc main_arg1) := W2_of_ne m c main_arg1 (by decide)
    _ = W0 m c (Proc.devRef .tc main_arg1) := W1_of m c main_arg1 (by decide)
    _ = m ((c : Thread nD τ).loc main_arg1) := rfl

/-! ## The proof data family and the thread state -/

/-- Each call's proof data at its entry contents — a literal match on the call's number. -/
def pdats : (p : Fin 2) → (c : Dev nD) → Dat τ (Elt F) Unit ℕ (UR sig nD τ) ℕ (Pipeline.pin (pcfgs (F := F)) adm p) c
  | ⟨0, _⟩ => fun c => dat0 (B1 m) c
  | ⟨1, _⟩ => fun c => dat1 (B2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W4`, the generator register at some state. -/
abbrev Tₙ (c : Dev nD) : sProp 𝕄 := iprop(StableHlo.held (c : Thread nD τ) (Pipeline.ucRefs τ sig) (W4 m c) ∗ ∃ r, prngReg c r)

/-! ## The calls as segments -/

set_option backward.isDefEq.respectTransparency.types false in
/-- The first call: entered from every unscoped buffer at `W1`, left at `W2`. Its arrays are split out of the unscoped
    buffers and put back at the exit contents; the generator register goes into the invariant and comes out; nothing is
    owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (B1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (B1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi_last0 (B1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (B1 m c) (B2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (B2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (B2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi_last1 (B2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (B2 m c) (B3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
/-- @main is the run of the segments. -/
theorem main_run (c : Dev nD) : main (F := F) c = Pipeline.Seg.run (segs m) := (main_chain c).trans (by chain_rfl)

set_option backward.isDefEq.respectTransparency.types false in
/-- At the compiled mesh, from any memory with zero counters: every weakly fair execution of @main on the TensorCores
    terminates, nothing faulting, and every final state has every unscoped buffer at `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (StableHlo.after hostOps2 (W3 m c)) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame claim's post: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m c),
     (h c _ (mem_uc main_arg1 (by decide))).trans (W4_main_arg1 m c)⟩) (run_main m ρ)

end Cert.Kernel.Hand
end
-- ==== Proof.KernelIdeal.Body0.lean ====
/-
  The kernel body of the first nearest-neighbour call, run on whole staging buffers, in its three cases.

  The grid is (batch, row tile, column tile) = 8 × 4 × 4. At a point the body holds a [1024 × 3] block of the query
  cloud, a [3 × 1024] block of the transposed key cloud, and a [1024 × 1] running minimum kept in a scratch buffer
  across the four column tiles of a row tile. At column tile 0 the running minimum is first reset to +∞; at every
  column tile it becomes the elementwise minimum of itself and the row minima of this tile's clamped squared
  distances; at column tile 3 it is then copied into the output block. The three theorems say exactly this of the
  buffers' contents, one per case of the two conditions on the column-tile coordinate.
-/
import proofs.«150788_j62191126446336_1_alg».proof.Proof.Gen.KernelIdeal.Launch
import proofs.«150788_j62191126446336_1_alg».proof.Proof.Gen.KernelIdeal.Skeleton
import proofs.«150788_j62191126446336_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch of the body (the accumulator's reset) is taken exactly when the grid's last coordinate is 0. -/
abbrev cond0_0 (i : grid0.Coords) : Prop := (Scalar.cmpi .ne (Scalar.extui (Scalar.cmpi .eq (BitVec.ofNat 32 (i 2).val) 0#32)) 0#32) = 1#1
/-- The second branch (the accumulator copied to the output block) is taken exactly when it is 3. -/
abbrev cond0_1 (i : grid0.Coords) : Prop := k0_cond2 i = 1#1

set_option maxHeartbeats 1000000 in
/-- A point in the middle of a row of tiles (last coordinate 1 or 2): the accumulator, found at `xs`, is left at the
    elementwise minimum of `xs` and this tile's row minima; the output block is not touched. -/
theorem runB0 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x1 .f32) (harg5 : arg5.IsWhole) (arg6 : Memref sig .tc .vmem S1024x1 .f32) (harg6 : arg6.IsWhole)
    (hc0 : ¬cond0_0 i) (hc1 : ¬cond0_1 i)
    (x0 : Vec F S1x1024x3 .f32) (x1 : Vec F S1x3x1024 .f32) (xi2 : Vec F S1x1024x1 .f32) (xs : Vec F S1024x1 .f32) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs
        ∗ (iprop(owns (c : Thread nD τ) arg3 fullShare x0 ∗ owns (c : Thread nD τ) arg4 fullShare x1 ∗ owns (c : Thread nD τ) arg5 fullShare xi2 ∗ owns (c : Thread nD τ) arg6 fullShare (k0_pay2 x0 x1 xs)) -∗ K ⟨⟩))
      ⊢ wp frame (wpE (defs₀ (F := F)) Variants.none c none) E (cc0__min_sqdist_kernel i arg3 harg3 arg4 harg4 arg5 harg5 arg6 harg6) K := by
  have zeros2 : (![0, 0] : Fin 2 → Nat) = fun _ => 0 := by funext a; fin_cases a <;> rfl
  have zeros3 : (![0, 0, 0] : Fin 3 → Nat) = fun _ => 0 := by funext a; fin_cases a <;> rfl
  simp only [cc0__min_sqdist_kernel_eq_skeleton]; unfold cc0__min_sqdist_kernel_skel
  simp only [k0_part1_eq_skeleton]; unfold k0_part1_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [View.read_writes_eq_canon _ _ _ (fun y => ⟨_, List.mem_singleton_self _, View.mem_set_unit_zero zeros2 Facts₀.inb_S1024x1_S1024x1_0_0 y⟩), View.canon_unit_zero zeros2]
  simp only [View.readAt_eq_ld, hf0, hf1, hfs, View.ld_unit_zero (S := S1x1024x3) zeros3, View.ld_unit_zero (S := S1x3x1024) zeros3, View.ld_unit_zero (S := S1024x1) zeros2]

set_option maxHeartbeats 1000000 in
/-- The first tile of a row (last coordinate 0): the accumulator, whatever it held, is reset to +∞ and then left at
    this tile's row minima; the output block is not touched. -/
theorem runA0 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x1 .f32) (harg5 : arg5.IsWhole) (arg6 : Memref sig .tc .vmem S1024x1 .f32) (harg6 : arg6.IsWhole)
    (hc0 : cond0_0 i) (hc1 : ¬cond0_1 i)
    (x0 : Vec F S1x1024x3 .f32) (x1 : Vec F S1x3x1024 .f32) (xi2 : Vec F S1x1024x1 .f32) (E : Set ℕ) (K : PUnit → sProp 𝕄) :
    iprop(owns (c : Thread nD τ) arg3 fullShare x0 ∗ owns (c : Thread nD τ) arg4 fullShare x1 ∗ owns (c : Thread nD τ) arg5 fullShare xi2 ∗ (∃ d, owns (c : Thread nD τ) arg6 fullShare d)
        ∗ (iprop(owns (c : Thread nD τ) arg3 fullShare x0 ∗ owns (c : Thread nD τ) arg4 fullShare x1 ∗ owns (c : Thread nD τ) arg5 fullShare xi2 ∗ owns (c : Thread nD τ) arg6 fullShare (k0_pay2 x0 x1 (k0_pay1 (F := F)))) -∗ K ⟨⟩))
      ⊢ wp frame (wpE (defs₀ (F := F)) Variants.none c none) E (cc0__min_sqdist_kernel i arg3 harg3 arg4 harg4 arg5 harg5 arg6 harg6) K := by
  have zeros2 : (![0, 0] : Fin 2 → Nat) = fun _ => 0 := by funext a; fin_cases a <;> rfl
  have zeros3 : (![0, 0, 0] : Fin 3 → Nat) = fun _ => 0 := by funext a; fin_cases a <;> rfl
  simp only [cc0__min_sqdist_kernel_eq_skeleton]; unfold cc0__min_sqdist_kernel_skel
  simp only [k0_part1_eq_skeleton]; unfold k0_part1_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  rw [View.read_writes_eq_canon _ _ _ (fun y => ⟨_, List.mem_cons_self .., View.mem_set_unit_zero zeros2 Facts₀.inb_S1024x1_S1024x1_0_0 y⟩), View.canon_cons_unit_zero zeros2]
  simp only [View.readAt_eq_ld, hf0, hf1, View.ld_unit_zero (S := S1x1024x3) zeros3, View.ld_unit_zero (S := S1x3x1024) zeros3, View.readCov_unit_zero (S := S1024x1) _ zeros2]

set_option maxHeartbeats 1000000 in
/-- The last tile of a row (last coordinate 3): the accumulator, found at `xs`, is left at the minimum with this tile's
    row minima, and that value is stored, as one column, into the output block. -/
theorem runC0 (c : Dev nD) (i : grid0.Coords) (arg3 : Memref sig .tc .vmem S1x1024x3 .f32) (harg3 : arg3.IsWhole) (arg4 : Memref sig .tc .vmem S1x3x1024 .f32) (harg4 : arg4.IsWhole) (arg5 : Memref sig .tc .vmem S1x1024x1 .f32) (harg5 : arg5.IsWhole) (arg6 : Memref sig .tc .vmem S1024x1 .f32) (harg6 : arg6.IsWhole)
    (hc0 : ¬cond0_0 i) (hc1 : cond0_1 i)
    (x0 : Vec F S1x1024x3 .f32) (x1 : Vec F S1x3x1024 .f32) (xs : Vec F S1024x1 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k0_pay3 (k0_pay2 x0 x1 xs)) ∗ owns (c : Thread nD τ) arg6 fullShare (k0_pay2 x0 x1 xs)) -∗ K ⟨⟩))
      ⊢ wp frame (wpE (defs₀ (F := F)) Variants.none c none) E (cc0__min_sqdist_kernel i arg3 harg3 arg4 harg4 arg5 harg5 arg6 harg6) K := by
  have zeros2 : (![0, 0] : Fin 2 → Nat) = fun _ => 0 := by funext a; fin_cases a <;> rfl
  have zeros3 : (![0, 0, 0] : Fin 3 → Nat) = fun _ => 0 := by funext a; fin_cases a <;> rfl
  simp only [cc0__min_sqdist_kernel_eq_skeleton]; unfold cc0__min_sqdist_kernel_skel
  simp only [k0_part1_eq_skeleton]; unfold k0_part1_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [View.read_writes_eq_canon _ _ _ (fun y => ⟨_, List.mem_singleton_self _, View.mem_set_unit_zero zeros3 Facts₀.inb_S1x1024x1_S1x1024x1_0_0_0 y⟩), View.canon_unit_zero zeros3]
    simp only [View.readAt_eq_ld, hf0, hf1, hfs, View.ld_unit_zero (S := S1x1024x3) zeros3, View.ld_unit_zero (S := S1x3x1024) zeros3, View.ld_unit_zero (S := S1024x1) zeros2, View.readCov_unit_zero (S := S1024x1) _ zeros2]
  iexists _; isplitr
  swap; · iexact HS
  ipureintro
  sl_unfold_words
  rw [View.read_writes_eq_canon _ _ _ (fun y => ⟨_, List.mem_singleton_self _, View.mem_set_unit_zero zeros2 Facts₀.inb_S1024x1_S1024x1_0_0 y⟩), View.canon_unit_zero zeros2]
  simp only [View.readAt_eq_ld, hf0, hf1, hfs, View.ld_unit_zero (S := S1x1024x3) zeros3, View.ld_unit_zero (S := S1x3x1024) zeros3, View.ld_unit_zero (S := S1024x1) zeros2]

end Cert.KernelIdeal.Hand
end
-- ==== Proof.KernelIdeal.Scoped0.lean ====
/-
  The scoped buffers the first nearest-neighbour call does not stage through: its own running-minimum scratch, and
  seven buffers of the other call that ride along untouched. The class invariant of the region — every such buffer
  at some contents, and the generator register at some state — is split here into the scratch, the seven others and
  the register, and put back, so that the body's invariant can name the scratch's contents and nothing else.
-/
import proofs.«150788_j62191126446336_1_alg».proof.Proof.Gen.KernelIdeal.Launch
import proofs.«150788_j62191126446336_1_alg».proof.Proof.Gen.KernelIdeal.Skeleton
import proofs.«150788_j62191126446336_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The running-minimum scratch of the first call, as a whole memref. -/
abbrev scM0 : Memref sig .tc .vmem S1024x1 .f32 := Memref.whole cc0_scratch0

/-- The seven scoped buffers of the other call, each at some contents. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(((∃ d, owns (c : Thread nD τ) scM0 fullShare d) ∗ others0 (F := F) c) ∗ (∃ r, prngReg c r)) := by
  unfold Pipeline.ΦA; rw [scopedRest0_eq]; simp only [scM0, others0, owns_whole]; try rfl

/-- The invariant opened: the scratch at some contents, the seven others, the register. -/
theorem PhiA0_open (c : Dev nD) :
    (Pipeline.ΦA spec0 c : sProp 𝕄)
      ⊢ iprop(((∃ d, owns (c : Thread nD τ) scM0 fullShare d) ∗ others0 (F := F) c) ∗ (∃ r, prngReg c r)) :=
  Entails.of_eq (PhiA0_eq c)

/-- And closed again. -/
theorem PhiA0_close (c : Dev nD) :
    iprop(((∃ d, owns (c : Thread nD τ) scM0 fullShare d) ∗ others0 (F := F) c) ∗ (∃ r, prngReg c r))
      ⊢ (Pipeline.ΦA spec0 c : sProp 𝕄) :=
  Entails.of_eq (PhiA0_eq c).symm

end Cert.KernelIdeal.Hand
end
-- ==== Proof.KernelIdeal.Frame0.lean ====
/-
  The first nearest-neighbour call as a pipeline: its proof data and its body obligation, at any contents `V` of the
  TensorCore's buffers when the call is entered.

  A grid point `t` of 128 is (batch, row tile, column tile) with column tile `t mod 4`. The two input windows hold,
  at every point, the blocks of their arrays the index maps name (`iblk0`). The running minimum after point `t`
  (`acc0`) restarts from +∞ at column tile 0 and otherwise continues from the point before. The region's invariant
  (`PhiS0`) keeps the scratch buffer at that running minimum between points. The output window is stored only at
  column tile 3 — there it receives the running minimum as one column — and is handed back untouched elsewhere.
-/
import proofs.«150788_j62191126446336_1_alg».proof.Proof.Gen.KernelIdeal.Launch
import proofs.«150788_j62191126446336_1_alg».proof.Proof.Gen.KernelIdeal.Skeleton
import proofs.«150788_j62191126446336_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic
import proofs.«150788_j62191126446336_1_alg».proof.Proof.KernelIdeal.Body0
import proofs.«150788_j62191126446336_1_alg».proof.Proof.KernelIdeal.Scoped0
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions in closed form, and where the output window is idle -/

/-- The reset is taken at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)
/-- The copy to the output block is taken at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-- The input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
/-- Off the last column tile the output window is idle and is not written back. -/
theorem idleAt0_2 : ∀ t : Fin cfg0.N, ¬cond0_1 (grid0.coords t) → cfg0.idle 2 (grid0.coords t) = true :=
  (by decide +kernel : ∀ t : Fin grid0.N, ¬cond0_1 (grid0.coords t) → cfg0.idle 2 (grid0.coords t) = true)
theorem noFlush0_2 : ∀ t : Fin cfg0.N, ¬cond0_1 (grid0.coords t) → (cfg0.win 2).flush t = false :=
  (by decide +kernel : ∀ t : Fin grid0.N, ¬cond0_1 (grid0.coords t) → win0_2.flush t = false)
/-- At the last column tile it is live. -/
theorem liveAt0_2 : ∀ t : Fin cfg0.N, cond0_1 (grid0.coords t) → cfg0.idle 2 (grid0.coords t) = false :=
  (by decide +kernel : ∀ t : Fin grid0.N, cond0_1 (grid0.coords t) → cfg0.idle 2 (grid0.coords t) = false)

section AtEntry

-- the TensorCore's buffer contents when the call is entered
variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (an unfetched point has the
    block index of the point before), for any proof data over these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The running minimum, point by point -/

/-- What the scratch holds after the body at position `n`: at a first column tile the minimum of +∞ and this tile's
    row minima; otherwise the minimum of what the point before left and this tile's row minima. -/
def acc0 (c : Dev nD) : (n : ℕ) → n < cfg0.N → Vec F S1024x1 .f32
  | 0, hn => k0_pay2 (iblk0 V c 0 ⟨0, hn⟩) (iblk0 V c 1 ⟨0, hn⟩) (k0_pay1 (F := F))
  | n + 1, hn =>
    if (n + 1) % 4 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

/-- At a first column tile the running minimum restarts. -/
theorem acc0_reset (c : Dev nD) (t : Fin cfg0.N) (h0 : t.val % 4 = 0) :
    acc0 V c t.val t.isLt = k0_pay2 (iblk0 V c 0 t) (iblk0 V c 1 t) (k0_pay1 (F := F)) := by
  obtain ⟨n, hn⟩ := t
  cases n with
  | zero => rfl
  | succ n => exact if_pos h0

/-- Elsewhere it continues from the point before. -/
theorem acc0_step (c : Dev nD) (t : Fin cfg0.N) (h0 : ¬t.val % 4 = 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h0
  | succ n => exact if_neg h0

/-! ## The region's invariant -/

/-- Before position `n`: before the first point every scoped buffer at anything; afterwards the scratch at the running
    minimum the point before left, the other scoped buffers at anything, the generator register at some state. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ others0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (acc0 V c n hn) ∗ others0 (F := F) c) ∗ (∃ r, prngReg c r)) := rfl

theorem PhiS0_pos (c : Dev nD) (n : ℕ) (h : n ≤ cfg0.N) (hz : n ≠ 0) :
    PhiS0 V c n h = iprop((owns (c : Thread nD τ) scM0 fullShare (acc0 V c (n - 1) (by omega)) ∗ others0 (F := F) c) ∗ (∃ r, prngReg c r)) := by
  cases n with
  | zero => exact absurd rfl hz
  | succ n => rfl

/-! ## The proof data -/

/-- The arrays as the call finds them; after the body each input's buffer at its block, the output's at the running
    minimum as one column (read only where it is stored: the last column tiles); the invariant `PhiS0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; the column tile says which of the three cases the
    point is in; the invariant hands the body the scratch at the running minimum the point before left (at anything
    before the first point) and takes it back at this point's; the output buffer is stored at the last column tile and
    handed back as found elsewhere; nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 128 := lt_of_lt_of_eq t.isLt (show cfg0.N = 128 from N_0)
  by_cases h0 : t.val % 4 = 0
  · have hc0 : cond0_0 (grid0.coords t) := (hcond0_0 t).mpr h0
    have hc1 : ¬cond0_1 (grid0.coords t) := fun h => by have := (hcond0_1 t).mp h; omega
    rw [Dat.leavesExact_idle (dat0 V c) 2 t (idleAt0_2 t hc1) (noFlush0_2 t hc1)]
    rw [acc0_reset V c t h0]
    by_cases hz : t.val = 0
    · rw [PhiS0_castSucc V c t, PhiS0_zero V c _ _ hz]
      refine (sep_mono (PhiA0_open c) .rfl).trans ?_
      iintro ⟨⟨⟨HS0, Hoth⟩, Hg⟩, Ho, ⟨%d0, H0⟩, ⟨%d1, H1⟩, ⟨%d2, H2⟩⟩
      iapply (runA0 c (grid0.coords t) _ _ _ _ _ _ _ _ hc0 hc1 (iblk0 V c 0 t) (iblk0 V c 1 t) _ Set.univ _)
      isplitl [H0]; · iexact H0
      isplitl [H1]; · iexact H1
      isplitl [H2]; · iexact H2
      isplitl [HS0]; · iexact HS0
      iintro ⟨H0, H1, H2, HS0⟩
      isplitl [HS0 Hoth Hg]
      · isplitl [HS0 Hoth]
        · isplitl [HS0]; · iexact HS0
          iexact Hoth
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hoth⟩, Hg⟩, Ho, ⟨%d0, H0⟩, ⟨%d1, H1⟩, ⟨%d2, H2⟩⟩
      iapply (runA0 c (grid0.coords t) _ _ _ _ _ _ _ _ hc0 hc1 (iblk0 V c 0 t) (iblk0 V c 1 t) _ Set.univ _)
      isplitl [H0]; · iexact H0
      isplitl [H1]; · iexact H1
      isplitl [H2]; · iexact H2
      isplitl [HS0]; · iexists _; iexact HS0
      iintro ⟨H0, H1, H2, HS0⟩
      isplitl [HS0 Hoth Hg]
      · isplitl [HS0 Hoth]
        · isplitl [HS0]; · iexact HS0
          iexact Hoth
        iexact Hg
      isplitl [Ho]; · iexact Ho
      isplitl [H0]; · iexact H0
      isplitl [H1]; · iexact H1
      iexists _; iexact H2
  · have hc0 : ¬cond0_0 (grid0.coords t) := fun h => h0 ((hcond0_0 t).mp h)
    have hz : t.val ≠ 0 := fun e => h0 (by rw [e])
    rw [acc0_step V c t h0]
    rw [PhiS0_castSucc V c t, PhiS0_pos V c _ _ hz]
    by_cases h1 : t.val % 4 = 3
    · have hc1 : cond0_1 (grid0.coords t) := (hcond0_1 t).mpr h1
      rw [show (dat0 V c).leavesExact 2 t = owns (c : Thread nD τ) (st0_2 t) fullShare ((dat0 V c).after 2 t) from by
        unfold Dat.leavesExact; rw [liveAt0_2 t hc1], after0_2, acc0_step V c t h0]
      iintro ⟨⟨⟨HS0, Hoth⟩, Hg⟩, Ho, ⟨%d0, H0⟩, ⟨%d1, H1⟩, ⟨%d2, H2⟩⟩
      iapply (runC0 c (grid0.coords t) _ _ _ _ _ _ _ _ hc0 hc1 (iblk0 V c 0 t) (iblk0 V c 1 t) _ Set.univ _)
      isplitl [H0]; · iexact H0
      isplitl [H1]; · iexact H1
      isplitl [H2]; · iexists _; iexact H2
      isplitl [HS0]; · iexact HS0
      iintro ⟨H0, H1, H2, HS0⟩
      isplitl [HS0 Hoth Hg]
      · isplitl [HS0 Hoth]
        · isplitl [HS0]; · iexact HS0
          iexact Hoth
        iexact Hg
      isplitl [Ho]; · iexact Ho
      isplitl [H0]; · iexact H0
      isplitl [H1]; · iexact H1
      iexact H2
    · have hc1 : ¬cond0_1 (grid0.coords t) := fun h => h1 ((hcond0_1 t).mp h)
      rw [Dat.leavesExact_idle (dat0 V c) 2 t (idleAt0_2 t hc1) (noFlush0_2 t hc1)]
      iintro ⟨⟨⟨HS0, Hoth⟩, Hg⟩, Ho, ⟨%d0, H0⟩, ⟨%d1, H1⟩, ⟨%d2, H2⟩⟩
      iapply (runB0 c (grid0.coords t) _ _ _ _ _ _ _ _ hc0 hc1 (iblk0 V c 0 t) (iblk0 V c 1 t) _ _ Set.univ _)
      isplitl [H0]; · iexact H0
      isplitl [H1]; · iexact H1
      isplitl [H2]; · iexact H2
      isplitl [HS0]; · iexact HS0
      iintro ⟨H0, H1, H2, HS0⟩
      isplitl [HS0 Hoth Hg]
      · isplitl [HS0 Hoth]
        · isplitl [HS0]; · iexact HS0
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point the invariant gives the class invariant back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  refine BIBase.Entails.trans ?_ (PhiA0_close c)
  iintro ⟨⟨HS0, Hoth⟩, Hg⟩
  isplitl [HS0 Hoth]
  · isplitl [HS0]; · iexists _; iexact HS0
    iexact Hoth
  iexact Hg

/-- The same after the last point. -/
theorem Phi_last0 (c : Dev nD) : (dat0 V c).Φ (Fin.last cfg0.N) ⊢ Pipeline.ΦA spec0 c :=
  Phi_out0 V c _ (by rw [Fin.val_last]; have : cfg0.N = 128 := N_0; omega)

end AtEntry

end Cert.KernelIdeal.Hand
end
-- ==== Proof.KernelIdeal.Body1.lean ====
/-
  The kernel body of the second nearest-neighbour call, run on whole staging buffers, in its three cases.

  The grid is (batch, row tile, column tile) = 8 × 4 × 4. At a point the body holds a [1024 × 3] block of the query
  cloud, a [3 × 1024] block of the transposed key cloud, and a [1024 × 1] running minimum kept in a scratch buffer
  across the four column tiles of a row tile. At column tile 0 the running minimum is first reset to +∞; at every
  column tile it becomes the elementwise minimum of itself and the row minima of this tile's clamped squared
  distances; at column tile 3 it is then copied into the output block. The three theorems say exactly this of the
  buffers' contents, one per case of the two conditions on the column-tile coordinate.
-/
import proofs.«150788_j62191126446336_1_alg».proof.Proof.Gen.KernelIdeal.Launch
import proofs.«150788_j62191126446336_1_alg».proof.Proof.Gen.KernelIdeal.Skeleton
import proofs.«150788_j62191126446336_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch of the body (the accumulator's reset) is taken exactly when the grid's last coordinate is 0. -/
abbrev cond1_0 (i : grid1.Coords) : Prop := (Scalar.cmpi .ne (Scalar.extui (Scalar.cmpi .eq (BitVec.ofNat 32 (i 2).val) 0#32)) 0#32) = 1#1
/-- The second branch (the accumulator copied to the output block) is taken exactly when it is 3. -/
abbrev cond1_1 (i : grid1.Coords) : Prop := k1_cond2 i = 1#1

set_option maxHeartbeats 1000000 in
/-- A point in the middle of a row of tiles (last coordinate 1 or 2): the accumulator, found at `xs`, is left at the
    elementwise minimum of `xs` and this tile's row minima; the output block is not touched. -/
theorem runB1 (c : Dev nD) (i : grid1.Coords) (arg3 : Memref sig .tc .vmem S1x1024x3 .f32) (harg3 : arg3.IsWhole) (arg4 : Memref sig .tc .vmem S1x3x1024 .f32) (harg4 : arg4.IsWhole) (arg5 : Memref sig .tc .vmem S1x1024x1 .f32) (harg5 : arg5.IsWhole) (arg6 : Memref sig .tc .vmem S1024x1 .f32) (harg6 : arg6.IsWhole)
    (hc0 : ¬cond1_0 i) (hc1 : ¬cond1_1 i)
    (x0 : Vec F S1x1024x3 .f32) (x1 : Vec F S1x3x1024 .f32) (xi2 : Vec F S1x1024x1 .f32) (xs : Vec F S1024x1 .f32) (E : Set ℕ) (K : PUnit → sProp 𝕄) :
    iprop(owns (c : Thread nD τ) arg3 fullShare x0 ∗ owns (c : Thread nD τ) arg4 fullShare x1 ∗ owns (c : Thread nD τ) arg5 fullShare xi2 ∗ owns (c : Thread nD τ) arg6 fullShare xs
        ∗ (iprop(owns (c : Thread nD τ) arg3 fullShare x0 ∗ owns (c : Thread nD τ) arg4 fullShare x1 ∗ owns (c : Thread nD τ) arg5 fullShare xi2 ∗ owns (c : Thread nD τ) arg6 fullShare (k1_pay2 x0 x1 xs)) -∗ K ⟨⟩))
      ⊢ wp frame (wpE (defs₀ (F := F)) Variants.none c none) E (cc1__min_sqdist_kernel i arg3 harg3 arg4 harg4 arg5 harg5 arg6 harg6) K := by
  have zeros2 : (![0, 0] : Fin 2 → Nat) = fun _ => 0 := by funext a; fin_cases a <;> rfl
  have zeros3 : (![0, 0, 0] : Fin 3 → Nat) = fun _ => 0 := by funext a; fin_cases a <;> rfl
  simp only [cc1__min_sqdist_kernel_eq_skeleton]; unfold cc1__min_sqdist_kernel_skel
  simp only [k1_part1_eq_skeleton]; unfold k1_part1_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [View.read_writes_eq_canon _ _ _ (fun y => ⟨_, List.mem_singleton_self _, View.mem_set_unit_zero zeros2 Facts₀.inb_S1024x1_S1024x1_0_0 y⟩), View.canon_unit_zero zeros2]
  simp only [View.readAt_eq_ld, hf0, hf1, hfs, View.ld_unit_zero (S := S1x1024x3) zeros3, View.ld_unit_zero (S := S1x3x1024) zeros3, View.ld_unit_zero (S := S1024x1) zeros2]

set_option maxHeartbeats 1000000 in
/-- The first tile of a row (last coordinate 0): the accumulator, whatever it held, is reset to +∞ and then left at
    this tile's row minima; the output block is not touched. -/
theorem runA1 (c : Dev nD) (i : grid1.Coords) (arg3 : Memref sig .tc .vmem S1x1024x3 .f32) (harg3 : arg3.IsWhole) (arg4 : Memref sig .tc .vmem S1x3x1024 .f32) (harg4 : arg4.IsWhole) (arg5 : Memref sig .tc .vmem S1x1024x1 .f32) (harg5 : arg5.IsWhole) (arg6 : Memref sig .tc .vmem S1024x1 .f32) (harg6 : arg6.IsWhole)
    (hc0 : cond1_0 i) (hc1 : ¬cond1_1 i)
    (x0 : Vec F S1x1024x3 .f32) (x1 : Vec F S1x3x1024 .f32) (xi2 : Vec F S1x1024x1 .f32) (E : Set ℕ) (K : PUnit → sProp 𝕄) :
    iprop(owns (c : Thread nD τ) arg3 fullShare x0 ∗ owns (c : Thread nD τ) arg4 fullShare x1 ∗ owns (c : Thread nD τ) arg5 fullShare xi2 ∗ (∃ d, owns (c : Thread nD τ) arg6 fullShare d)
        ∗ (iprop(owns (c : Thread nD τ) arg3 fullShare x0 ∗ owns (c : Thread nD τ) arg4 fullShare x1 ∗ owns (c : Thread nD τ) arg5 fullShare xi2 ∗ owns (c : Thread nD τ) arg6 fullShare (k1_pay2 x0 x1 (k1_pay1 (F := F)))) -∗ K ⟨⟩))
      ⊢ wp frame (wpE (defs₀ (F := F)) Variants.none c none) E (cc1__min_sqdist_kernel i arg3 harg3 arg4 harg4 arg5 harg5 arg6 harg6) K := by
  have zeros2 : (![0, 0] : Fin 2 → Nat) = fun _ => 0 := by funext a; fin_cases a <;> rfl
  have zeros3 : (![0, 0, 0] : Fin 3 → Nat) = fun _ => 0 := by funext a; fin_cases a <;> rfl
  simp only [cc1__min_sqdist_kernel_eq_skeleton]; unfold cc1__min_sqdist_kernel_skel
  simp only [k1_part1_eq_skeleton]; unfold k1_part1_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  rw [View.read_writes_eq_canon _ _ _ (fun y => ⟨_, List.mem_cons_self .., View.mem_set_unit_zero zeros2 Facts₀.inb_S1024x1_S1024x1_0_0 y⟩), View.canon_cons_unit_zero zeros2]
  simp only [View.readAt_eq_ld, hf0, hf1, View.ld_unit_zero (S := S1x1024x3) zeros3, View.ld_unit_zero (S := S1x3x1024) zeros3, View.readCov_unit_zero (S := S1024x1) _ zeros2]

set_option maxHeartbeats 1000000 in
/-- The last tile of a row (last coordinate 3): the accumulator, found at `xs`, is left at the minimum with this tile's
    row minima, and that value is stored, as one column, into the output block. -/
theorem runC1 (c : Dev nD) (i : grid1.Coords) (arg3 : Memref sig .tc .vmem S1x1024x3 .f32) (harg3 : arg3.IsWhole) (arg4 : Memref sig .tc .vmem S1x3x1024 .f32) (harg4 : arg4.IsWhole) (arg5 : Memref sig .tc .vmem S1x1024x1 .f32) (harg5 : arg5.IsWhole) (arg6 : Memref sig .tc .vmem S1024x1 .f32) (harg6 : arg6.IsWhole)
    (hc0 : ¬cond1_0 i) (hc1 : cond1_1 i)
    (x0 : Vec F S1x1024x3 .f32) (x1 : Vec F S1x3x1024 .f32) (xs : Vec F S1024x1 .f32) (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare xs
        ∗ (iprop(owns (c : Thread nD τ) arg3 fullShare x0 ∗ owns (c : Thread nD τ) arg4 fullShare x1 ∗ owns (c : Thread nD τ) arg5 fullShare (k1_pay3 (k1_pay2 x0 x1 xs)) ∗ owns (c : Thread nD τ) arg6 fullShare (k1_pay2 x0 x1 xs)) -∗ K ⟨⟩))
      ⊢ wp frame (wpE (defs₀ (F := F)) Variants.none c none) E (cc1__min_sqdist_kernel i arg3 harg3 arg4 harg4 arg5 harg5 arg6 harg6) K := by
  have zeros2 : (![0, 0] : Fin 2 → Nat) = fun _ => 0 := by funext a; fin_cases a <;> rfl
  have zeros3 : (![0, 0, 0] : Fin 3 → Nat) = fun _ => 0 := by funext a; fin_cases a <;> rfl
  simp only [cc1__min_sqdist_kernel_eq_skeleton]; unfold cc1__min_sqdist_kernel_skel
  simp only [k1_part1_eq_skeleton]; unfold k1_part1_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [View.read_writes_eq_canon _ _ _ (fun y => ⟨_, List.mem_singleton_self _, View.mem_set_unit_zero zeros3 Facts₀.inb_S1x1024x1_S1x1024x1_0_0_0 y⟩), View.canon_unit_zero zeros3]
    simp only [View.readAt_eq_ld, hf0, hf1, hfs, View.ld_unit_zero (S := S1x1024x3) zeros3, View.ld_unit_zero (S := S1x3x1024) zeros3, View.ld_unit_zero (S := S1024x1) zeros2, View.readCov_unit_zero (S := S1024x1) _ zeros2]
  iexists _; isplitr
  swap; · iexact HS
  ipureintro
  sl_unfold_words
  rw [View.read_writes_eq_canon _ _ _ (fun y => ⟨_, List.mem_singleton_self _, View.mem_set_unit_zero zeros2 Facts₀.inb_S1024x1_S1024x1_0_0 y⟩), View.canon_unit_zero zeros2]
  simp only [View.readAt_eq_ld, hf0, hf1, hfs, View.ld_unit_zero (S := S1x1024x3) zeros3, View.ld_unit_zero (S := S1x3x1024) zeros3, View.ld_unit_zero (S := S1024x1) zeros2]

end Cert.KernelIdeal.Hand
end
-- ==== Proof.KernelIdeal.Scoped1.lean ====
/-
  The scoped buffers the second nearest-neighbour call does not stage through: its own running-minimum scratch, and
  seven buffers of the other call that ride along untouched. The class invariant of the region — every such buffer
  at some contents, and the generator register at some state — is split here into the scratch, the seven others and
  the register, and put back, so that the body's invariant can name the scratch's contents and nothing else.
-/
import proofs.«150788_j62191126446336_1_alg».proof.Proof.Gen.KernelIdeal.Launch
import proofs.«150788_j62191126446336_1_alg».proof.Proof.Gen.KernelIdeal.Skeleton
import proofs.«150788_j62191126446336_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The running-minimum scratch of the second call, as a whole memref. -/
abbrev scM1 : Memref sig .tc .vmem S1024x1 .f32 := Memref.whole cc1_scratch0

/-- The seven scoped buffers of the other call, each at some contents. -/
abbrev others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class invariant with its buffers listed in the order the signature lists them: the scratch comes last. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [scM1, owns_whole]; try rfl

/-- The invariant opened: the scratch at some contents, the seven others, the register. -/
theorem PhiA1_open (c : Dev nD) :
    (Pipeline.ΦA spec1 c : sProp 𝕄)
      ⊢ iprop(((∃ d, owns (c : Thread nD τ) scM1 fullShare d) ∗ others1 (F := F) c) ∗ (∃ r, prngReg c r)) := by
  rw [PhiA1_eq]
  iintro ⟨⟨A0, A1, A2, A3, A4, A5, A6, HS⟩, Hg⟩
  isplitl [A0 A1 A2 A3 A4 A5 A6 HS]
  · isplitl [HS]; · iexact HS
    isplitl [A0]; · iexact A0
    isplitl [A1]; · iexact A1
    isplitl [A2]; · iexact A2
    isplitl [A3]; · iexact A3
    isplitl [A4]; · iexact A4
    isplitl [A5]; · iexact A5
    iexact A6
  iexact Hg

/-- And closed again. -/
theorem PhiA1_close (c : Dev nD) :
    iprop(((∃ d, owns (c : Thread nD τ) scM1 fullShare d) ∗ others1 (F := F) c) ∗ (∃ r, prngReg c r))
      ⊢ (Pipeline.ΦA spec1 c : sProp 𝕄) := by
  rw [PhiA1_eq]
  iintro ⟨⟨HS, A0, A1, A2, A3, A4, A5, A6⟩, Hg⟩
  isplitl [A0 A1 A2 A3 A4 A5 A6 HS]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact HS
  iexact Hg

end Cert.KernelIdeal.Hand
end
-- ==== Proof.KernelIdeal.Frame1.lean ====
/-
  The second nearest-neighbour call as a pipeline: its proof data and its body obligation, at any contents `V` of the
  TensorCore's buffers when the call is entered.

  A grid point `t` of 128 is (batch, row tile, column tile) with column tile `t mod 4`. The two input windows hold,
  at every point, the blocks of their arrays the index maps name (`iblk1`). The running minimum after point `t`
  (`acc1`) restarts from +∞ at column tile 0 and otherwise continues from the point before. The region's invariant
  (`PhiS1`) keeps the scratch buffer at that running minimum between points. The output window is stored only at
  column tile 3 — there it receives the running minimum as one column — and is handed back untouched elsewhere.
-/
import proofs.«150788_j62191126446336_1_alg».proof.Proof.Gen.KernelIdeal.Launch
import proofs.«150788_j62191126446336_1_alg».proof.Proof.Gen.KernelIdeal.Skeleton
import proofs.«150788_j62191126446336_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic
import proofs.«150788_j62191126446336_1_alg».proof.Proof.KernelIdeal.Body1
import proofs.«150788_j62191126446336_1_alg».proof.Proof.KernelIdeal.Scoped1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions in closed form, and where the output window is idle -/

/-- The reset is taken at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- The copy to the output block is taken at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
/-- Off the last column tile the output window is idle and is not written back. -/
theorem idleAt1_2 : ∀ t : Fin cfg1.N, ¬cond1_1 (grid1.coords t) → cfg1.idle 2 (grid1.coords t) = true :=
  (by decide +kernel : ∀ t : Fin grid1.N, ¬cond1_1 (grid1.coords t) → cfg1.idle 2 (grid1.coords t) = true)
theorem noFlush1_2 : ∀ t : Fin cfg1.N, ¬cond1_1 (grid1.coords t) → (cfg1.win 2).flush t = false :=
  (by decide +kernel : ∀ t : Fin grid1.N, ¬cond1_1 (grid1.coords t) → win1_2.flush t = false)
/-- At the last column tile it is live. -/
theorem liveAt1_2 : ∀ t : Fin cfg1.N, cond1_1 (grid1.coords t) → cfg1.idle 2 (grid1.coords t) = false :=
  (by decide +kernel : ∀ t : Fin grid1.N, cond1_1 (grid1.coords t) → cfg1.idle 2 (grid1.coords t) = false)

section AtEntry

-- the TensorCore's buffer contents when the call is entered
variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (an unfetched point has the
    block index of the point before), for any proof data over these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The running minimum, point by point -/

/-- What the scratch holds after the body at position `n`: at a first column tile the minimum of +∞ and this tile's
    row minima; otherwise the minimum of what the point before left and this tile's row minima. -/
def acc1 (c : Dev nD) : (n : ℕ) → n < cfg1.N → Vec F S1024x1 .f32
  | 0, hn => k1_pay2 (iblk1 V c 0 ⟨0, hn⟩) (iblk1 V c 1 ⟨0, hn⟩) (k1_pay1 (F := F))
  | n + 1, hn =>
    if (n + 1) % 4 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

/-- At a first column tile the running minimum restarts. -/
theorem acc1_reset (c : Dev nD) (t : Fin cfg1.N) (h0 : t.val % 4 = 0) :
    acc1 V c t.val t.isLt = k1_pay2 (iblk1 V c 0 t) (iblk1 V c 1 t) (k1_pay1 (F := F)) := by
  obtain ⟨n, hn⟩ := t
  cases n with
  | zero => rfl
  | succ n => exact if_pos h0

/-- Elsewhere it continues from the point before. -/
theorem acc1_step (c : Dev nD) (t : Fin cfg1.N) (h0 : ¬t.val % 4 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n => exact if_neg h0

/-! ## The region's invariant -/

/-- Before position `n`: before the first point every scoped buffer at anything; afterwards the scratch at the running
    minimum the point before left, the other scoped buffers at anything, the generator register at some state. -/
def PhiS1 (c : Dev nD) : (n : ℕ) → n ≤ cfg1.N → sProp 𝕄
  | 0, _ => Pipeline.ΦA spec1 c
  | n + 1, hn => iprop((owns (c : Thread nD τ) scM1 fullShare (acc1 V c n hn) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (acc1 V c n hn) ∗ others1 (F := F) c) ∗ (∃ r, prngReg c r)) := rfl

theorem PhiS1_pos (c : Dev nD) (n : ℕ) (h : n ≤ cfg1.N) (hz : n ≠ 0) :
    PhiS1 V c n h = iprop((owns (c : Thread nD τ) scM1 fullShare (acc1 V c (n - 1) (by omega)) ∗ others1 (F := F) c) ∗ (∃ r, prngReg c r)) := by
  cases n with
  | zero => exact absurd rfl hz
  | succ n => rfl

/-! ## The proof data -/

/-- The arrays as the call finds them; after the body each input's buffer at its block, the output's at the running
    minimum as one column (read only where it is stored: the last column tiles); the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the column tile says which of the three cases the
    point is in; the invariant hands the body the scratch at the running minimum the point before left (at anything
    before the first point) and takes it back at this point's; the output buffer is stored at the last column tile and
    handed back as found elsewhere; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 128 := lt_of_lt_of_eq t.isLt (show cfg1.N = 128 from N_1)
  by_cases h0 : t.val % 4 = 0
  · have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1)]
    rw [acc1_reset V c t h0]
    by_cases hz : t.val = 0
    · rw [PhiS1_castSucc V c t, PhiS1_zero V c _ _ hz]
      refine (sep_mono (PhiA1_open c) .rfl).trans ?_
      iintro ⟨⟨⟨HS0, Hoth⟩, Hg⟩, Ho, ⟨%d0, H0⟩, ⟨%d1, H1⟩, ⟨%d2, H2⟩⟩
      iapply (runA1 c (grid1.coords t) _ _ _ _ _ _ _ _ hc0 hc1 (iblk1 V c 0 t) (iblk1 V c 1 t) _ Set.univ _)
      isplitl [H0]; · iexact H0
      isplitl [H1]; · iexact H1
      isplitl [H2]; · iexact H2
      isplitl [HS0]; · iexact HS0
      iintro ⟨H0, H1, H2, HS0⟩
      isplitl [HS0 Hoth Hg]
      · isplitl [HS0 Hoth]
        · isplitl [HS0]; · iexact HS0
          iexact Hoth
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hoth⟩, Hg⟩, Ho, ⟨%d0, H0⟩, ⟨%d1, H1⟩, ⟨%d2, H2⟩⟩
      iapply (runA1 c (grid1.coords t) _ _ _ _ _ _ _ _ hc0 hc1 (iblk1 V c 0 t) (iblk1 V c 1 t) _ Set.univ _)
      isplitl [H0]; · iexact H0
      isplitl [H1]; · iexact H1
      isplitl [H2]; · iexact H2
      isplitl [HS0]; · iexists _; iexact HS0
      iintro ⟨H0, H1, H2, HS0⟩
      isplitl [HS0 Hoth Hg]
      · isplitl [HS0 Hoth]
        · isplitl [HS0]; · iexact HS0
          iexact Hoth
        iexact Hg
      isplitl [Ho]; · iexact Ho
      isplitl [H0]; · iexact H0
      isplitl [H1]; · iexact H1
      iexists _; iexact H2
  · have hc0 : ¬cond1_0 (grid1.coords t) := fun h => h0 ((hcond1_0 t).mp h)
    have hz : t.val ≠ 0 := fun e => h0 (by rw [e])
    rw [acc1_step V c t h0]
    rw [PhiS1_castSucc V c t, PhiS1_pos V c _ _ hz]
    by_cases h1 : t.val % 4 = 3
    · have hc1 : cond1_1 (grid1.coords t) := (hcond1_1 t).mpr h1
      rw [show (dat1 V c).leavesExact 2 t = owns (c : Thread nD τ) (st1_2 t) fullShare ((dat1 V c).after 2 t) from by
        unfold Dat.leavesExact; rw [liveAt1_2 t hc1], after1_2, acc1_step V c t h0]
      iintro ⟨⟨⟨HS0, Hoth⟩, Hg⟩, Ho, ⟨%d0, H0⟩, ⟨%d1, H1⟩, ⟨%d2, H2⟩⟩
      iapply (runC1 c (grid1.coords t) _ _ _ _ _ _ _ _ hc0 hc1 (iblk1 V c 0 t) (iblk1 V c 1 t) _ Set.univ _)
      isplitl [H0]; · iexact H0
      isplitl [H1]; · iexact H1
      isplitl [H2]; · iexists _; iexact H2
      isplitl [HS0]; · iexact HS0
      iintro ⟨H0, H1, H2, HS0⟩
      isplitl [HS0 Hoth Hg]
      · isplitl [HS0 Hoth]
        · isplitl [HS0]; · iexact HS0
          iexact Hoth
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨⟨HS0, Hoth⟩, Hg⟩, Ho, ⟨%d0, H0⟩, ⟨%d1, H1⟩, ⟨%d2, H2⟩⟩
      iapply (runB1 c (grid1.coords t) _ _ _ _ _ _ _ _ hc0 hc1 (iblk1 V c 0 t) (iblk1 V c 1 t) _ _ Set.univ _)
      isplitl [H0]; · iexact H0
      isplitl [H1]; · iexact H1
      isplitl [H2]; · iexact H2
      isplitl [HS0]; · iexact HS0
      iintro ⟨H0, H1, H2, HS0⟩
      isplitl [HS0 Hoth Hg]
      · isplitl [HS0 Hoth]
        · isplitl [HS0]; · iexact HS0
          iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point the invariant gives the class invariant back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine BIBase.Entails.trans ?_ (PhiA1_close c)
  iintro ⟨⟨HS0, Hoth⟩, Hg⟩
  isplitl [HS0 Hoth]
  · isplitl [HS0]; · iexists _; iexact HS0
    iexact Hoth
  iexact Hg

/-- The same after the last point. -/
theorem Phi_last1 (c : Dev nD) : (dat1 V c).Φ (Fin.last cfg1.N) ⊢ Pipeline.ΦA spec1 c :=
  Phi_out1 V c _ (by rw [Fin.val_last]; have : cfg1.N = 128 := N_1; omega)

end AtEntry

end Cert.KernelIdeal.Hand
end
-- ==== Proof.KernelIdeal.Run.lean ====
/-
  The program's run from launch to return, segment by segment.

  @main is: two transposes on the host; the first nearest-neighbour call; the second; nine scalar operations on
  the host (two totals, two quotients, a sum). Between these four segments the TensorCore's unscoped buffers are held
  whole at named contents: `W0` the launch memory, `W1` after the transposes, `W2` with the first call's arrays at what
  its write-backs leave, `W3` likewise after the second call, `W4` after the scalar operations. The theorem
  `run_main` says every weakly fair execution terminates and ends with every unscoped buffer at `W4`; the two
  argument arrays are read back through the boundaries to the launch memory.
-/
import proofs.«150788_j62191126446336_1_alg».proof.Proof.Gen.KernelIdeal.Launch
import proofs.«150788_j62191126446336_1_alg».proof.Proof.Gen.KernelIdeal.Skeleton
import proofs.«150788_j62191126446336_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic
import proofs.«150788_j62191126446336_1_alg».proof.Proof.Gen.KernelIdeal.Regions
import proofs.«150788_j62191126446336_1_alg».proof.Proof.KernelIdeal.Frame0
import proofs.«150788_j62191126446336_1_alg».proof.Proof.KernelIdeal.Frame1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the two transposes (the first call's entry). -/
abbrev W1 : Dev nD → Valuation τ sig (Elt F) := fun c => StableHlo.after hostOps0 (W0 m c)
/-- The same read at the TensorCore's references. -/
abbrev B1 : (c : Dev nD) → (b : Ref sig .tc) → Buf (Elt F) ((c : Thread nD τ).loc b) := fun c b => W1 m c b
/-- At the first call's exit: its arrays at what the pipeline leaves, every other buffer as entered. -/
def W2 (c : Dev nD) : Valuation τ sig (Elt F) :=
  Pipeline.withArrays spec0 c (W1 m c) fun w => (dat0 (B1 m) c).arrAt w cfg0.N
theorem W2_arr (c : Dev nD) (w : Fin cfg0.W) :
    W2 m c (Proc.devRef .tc (Pipeline.arrRef spec0 w)) = (dat0 (B1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev B2 : (c : Dev nD) → (b : Ref sig .tc) → Buf (Elt F) ((c : Thread nD τ).loc b) := fun c b => W2 m c b
theorem hF0 (c : Dev nD) (w : Fin cfg0.W) : (dat0 (B1 m) c).arrAt w cfg0.N = B2 m c (Pipeline.arrRef spec0 w) :=
  (W2_arr m c w).symm
theorem hrest0 (c : Dev nD) : ∀ b, b ∉ Finset.univ.image (Pipeline.arrRef spec0) → B2 m c b = B1 m c b :=
  fun b hb => W2_of_ne m c b fun w e => hb (Finset.mem_image.mpr ⟨w, Finset.mem_univ _, e⟩)

/-- At the second call's exit. -/
def W3 (c : Dev nD) : Valuation τ sig (Elt F) :=
  Pipeline.withArrays spec1 c (W2 m c) fun w => (dat1 (B2 m) c).arrAt w cfg1.N
theorem W3_arr (c : Dev nD) (w : Fin cfg1.W) :
    W3 m c (Proc.devRef .tc (Pipeline.arrRef spec1 w)) = (dat1 (B2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev B3 : (c : Dev nD) → (b : Ref sig .tc) → Buf (Elt F) ((c : Thread nD τ).loc b) := fun c b => W3 m c b
theorem hF1 (c : Dev nD) (w : Fin cfg1.W) : (dat1 (B2 m) c).arrAt w cfg1.N = B3 m c (Pipeline.arrRef spec1 w) :=
  (W3_arr m c w).symm
theorem hrest1 (c : Dev nD) : ∀ b, b ∉ Finset.univ.image (Pipeline.arrRef spec1) → B3 m c b = B2 m c b :=
  fun b hb => W3_of_ne m c b fun w e => hb (Finset.mem_image.mpr ⟨w, Finset.mem_univ _, e⟩)

/-- After the nine scalar operations (the return). -/
abbrev W4 : Dev nD → Valuation τ sig (Elt F) := fun c => StableHlo.after hostOps2 (W3 m c)

/-- The transposes write only their own results; -/
theorem W1_of (c : Dev nD) (r : Ref sig .tc) (h : r ∉ hostOps0_W) : W1 m c r = W0 m c r :=
  StableHlo.after_of_writes_sub hostOps0 _ hostOps0_writes h
/-- the scalar operations likewise. -/
theorem W4_of (c : Dev nD) (r : Ref sig .tc) (h : r ∉ hostOps2_W) : W4 m c r = W3 m c r :=
  StableHlo.after_of_writes_sub hostOps2 _ hostOps2_writes h

/-! ### The arguments end as launched: no host operation writes one, and a call reads it through an input window or not at all -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of m c main_arg0 (by decide)
    _ = W2 m c (Proc.devRef .tc main_arg0) := W3_of_ne m c main_arg0 (by decide)
    _ = W1 m c (Proc.devRef .tc main_arg0) := (W2_arr m c 0).trans (((dat0 (B1 m) c).arrAt_in 0 rfl _).trans (A_eq0 (B1 m) c 0))
    _ = W0 m c (Proc.devRef .tc main_arg0) := W1_of m c main_arg0 (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of m c main_arg1 (by decide)
    _ = W2 m c (Proc.devRef .tc main_arg1) := (W3_arr m c 0).trans (((dat1 (B2 m) c).arrAt_in 0 rfl _).trans (A_eq1 (B2 m) c 0))
    _ = W1 m c (Proc.devRef .tc main_arg1) := W2_of_ne m c main_arg1 (by decide)
    _ = W0 m c (Proc.devRef .tc main_arg1) := W1_of m c main_arg1 (by decide)
    _ = m ((c : Thread nD τ).loc main_arg1) := rfl

/-! ## The proof data family and the thread state -/

/-- Each call's proof data at its entry contents — a literal match on the call's number. -/
def pdats : (p : Fin 2) → (c : Dev nD) → Dat τ (Elt F) Unit ℕ (UR sig nD τ) ℕ (Pipeline.pin (pcfgs (F := F)) adm p) c
  | ⟨0, _⟩ => fun c => dat0 (B1 m) c
  | ⟨1, _⟩ => fun c => dat1 (B2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W4`, the generator register at some state. -/
abbrev Tₙ (c : Dev nD) : sProp 𝕄 := iprop(StableHlo.held (c : Thread nD τ) (Pipeline.ucRefs τ sig) (W4 m c) ∗ ∃ r, prngReg c r)

/-! ## The calls as segments -/

set_option backward.isDefEq.respectTransparency.types false in
/-- The first call: entered from every unscoped buffer at `W1`, left at `W2`. Its arrays are split out of the unscoped
    buffers and put back at the exit contents; the generator register goes into the invariant and comes out; nothing is
    owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (B1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (B1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi_last0 (B1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (B1 m c) (B2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (B2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (B2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi_last1 (B2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (B2 m c) (B3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
/-- @main is the run of the segments. -/
theorem main_run (c : Dev nD) : main (F := F) c = Pipeline.Seg.run (segs m) := (main_chain c).trans (by chain_rfl)

set_option backward.isDefEq.respectTransparency.types false in
/-- At the compiled mesh, from any memory with zero counters: every weakly fair execution of @main on the TensorCores
    terminates, nothing faulting, and every final state has every unscoped buffer at `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (StableHlo.after hostOps2 (W3 m c)) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame claim's post: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m c),
     (h c _ (mem_uc main_arg1 (by decide))).trans (W4_main_arg1 m c)⟩) (run_main m ρ)

end Cert.KernelIdeal.Hand
end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.TileValue.lean ====
/-
  The three values a grid point of the nearest-neighbour kernel stores, read entry by entry over the extended reals.

  A grid point holds a block of 1024 points `a` (rows, three coordinates each) and a block of 1024 points `bT`
  (columns, stored transposed). The running minimum is reset to +∞; it is then lowered, row by row, to the least of
  its old value and the row's clamped squared distances to the block's 1024 columns,
  `max (‖a r‖² + ‖b l‖² − 2 ⟨a r, b l⟩) 0`; at the last column block it is copied out under a leading unit axis.
  Four column blocks of 1024 folded one after the other from +∞ give the infimum over all 4096 columns.
-/
import proofs.«150788_j62191126446336_1_alg».proof.Proof.Gen.KernelIdeal.Skeleton
import proofs.«150788_j62191126446336_1_alg».proof.Proof.LibMatmulAt
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx

/-- One entry of a tile's clamped squared distances: row r of the left block against column l of the right block. -/
def tileTerm (a : Vec Ideal S1x1024x3 .f32) (bT : Vec Ideal S1x3x1024 .f32) (r l : Fin 1024) : EReal :=
  max (((∑ d : Fin 3, a (ix3 0 r d) * a (ix3 0 r d)) + (∑ d : Fin 3, bT (ix3 0 d l) * bT (ix3 0 d l)))
        - Ideal.ofBits .f32 0x40000000#32 * (∑ d : Fin 3, a (ix3 0 r d) * bT (ix3 0 d l))) (Ideal.ofBits .f32 0x00000000#32)

/-! ## Constants -/

/-- The word 0x7F800000 is +∞. -/
theorem ofBits_inf : Ideal.ofBits .f32 0x7F800000#32 = (⊤ : EReal) := by
  simp [Ideal.ofBits, Ideal.ieee]

/-! ## The reset value and the copy-out -/

theorem pay1_apply0 (y : S1024x1.Idx) : k0_pay1 (F := Ideal) y = ⊤ := by
  unfold k0_pay1
  rw [shapeCast_self]
  exact ofBits_inf

theorem pay3_apply0 (v : Vec Ideal S1024x1 .f32) (r : Fin 1024) : k0_pay3 (F := Ideal) v (ix3 0 r 0) = v (ix2 r 0) := by
  unfold k0_pay3
  exact shapeCast_ab_1ab_apply v _ 0 r 0

theorem k1_pay1_eq : @k1_pay1 = @k0_pay1 := rfl
theorem k1_pay2_eq : @k1_pay2 = @k0_pay2 := rfl
theorem k1_pay3_eq : @k1_pay3 = @k0_pay3 := rfl

theorem pay1_apply1 (y : S1024x1.Idx) : k1_pay1 (F := Ideal) y = ⊤ := by
  rw [k1_pay1_eq]; exact pay1_apply0 y

theorem pay3_apply1 (v : Vec Ideal S1024x1 .f32) (r : Fin 1024) : k1_pay3 (F := Ideal) v (ix3 0 r 0) = v (ix2 r 0) := by
  rw [k1_pay3_eq]; exact pay3_apply0 v r

/-! ## Where the matrix product reads its operands -/

theorem dot_lhs_0 (i : S1024x1024.Idx) (q : dot_S1024x3_S3x1024_S1024x1024_1_0_0_1_n_n.contr.Idx) :
    (dot_S1024x3_S3x1024_S1024x1024_1_0_0_1_n_n.lhsIdx i q 0).val = (i 0).val := by
  unfold DotDims.lhsIdx
  rw [dif_neg (show ¬(0 : Fin S1024x3.rank) ∈ dot_S1024x3_S3x1024_S1024x1024_1_0_0_1_n_n.lhsBatch by decide), dif_pos (show (0 : Fin S1024x3.rank) ∈ dot_S1024x3_S3x1024_S1024x1024_1_0_0_1_n_n.lhsNonContracting by decide)]
  rfl
theorem dot_lhs_1 (i : S1024x1024.Idx) (q : dot_S1024x3_S3x1024_S1024x1024_1_0_0_1_n_n.contr.Idx) :
    (dot_S1024x3_S3x1024_S1024x1024_1_0_0_1_n_n.lhsIdx i q 1).val = (q ⟨0, by decide⟩).val :=
  dot_S1024x3_S3x1024_S1024x1024_1_0_0_1_n_n.lhsIdx_val_of_single rfl i q
theorem dot_rhs_0 (i : S1024x1024.Idx) (q : dot_S1024x3_S3x1024_S1024x1024_1_0_0_1_n_n.contr.Idx) :
    (dot_S1024x3_S3x1024_S1024x1024_1_0_0_1_n_n.rhsIdx i q 0).val = (q ⟨0, by decide⟩).val :=
  dot_S1024x3_S3x1024_S1024x1024_1_0_0_1_n_n.rhsIdx_val_of_single rfl i q
theorem dot_rhs_1 (i : S1024x1024.Idx) (q : dot_S1024x3_S3x1024_S1024x1024_1_0_0_1_n_n.contr.Idx) :
    (dot_S1024x3_S3x1024_S1024x1024_1_0_0_1_n_n.rhsIdx i q 1).val = (i 1).val := by
  unfold DotDims.rhsIdx
  rw [dif_neg (show ¬(1 : Fin S3x1024.rank) ∈ dot_S1024x3_S3x1024_S1024x1024_1_0_0_1_n_n.rhsBatch by decide), dif_pos (show (1 : Fin S3x1024.rank) ∈ dot_S1024x3_S3x1024_S1024x1024_1_0_0_1_n_n.rhsNonContracting by decide)]
  rfl

/-- Entry (r, l) of the product of the row block and the column block, into a zero accumulator. -/
theorem xy_apply (A : FVec Ideal S1024x3 .bf16) (B : FVec Ideal S3x1024 .bf16) (r l : Fin 1024) :
    matmul dot_S1024x3_S3x1024_S1024x1024_1_0_0_1_n_n none A B (constant (F := Ideal) S1024x1024 .f32 0x00000000#32) (ix2 r l)
      = ∑ d : Fin 3, A (ix2 r d) * B (ix2 d l) :=
  MatmulAt.matmul_zero_at dot_S1024x3_S3x1024_S1024x1024_1_0_0_1_n_n rfl rfl dot_lhs_0 dot_lhs_1 dot_rhs_0 dot_rhs_1 none A B r l

/-! ## The layout steps at an entry -/

variable {α : Type}

/-- A length-1024 vector viewed as a column reads its r-th entry at (r, 0). -/
theorem cast_col_apply (v : S1024.Idx → α) (h : S1024.ShapeCasts S1024x1) (r : Fin 1024) (c : Fin 1) :
    shapeCast S1024x1 v h (ix2 r c) = v (ix1 r) :=
  shapeCast_apply v h _ _ (by
    have hc : c.val = 0 := by omega
    rw [Shape.rowMajor_val_two, Shape.rowMajor_val_one]
    show r.val = r.val * 1 + c.val
    rw [hc, Nat.mul_one, Nat.add_zero])

/-- A column spread over 1024 columns reads, at (r, l), the column's r-th entry. -/
theorem bcast_col_apply (v : S1024x1.Idx → α) (h : S1024x1.Broadcasts S1024x1024) (r l : Fin 1024) :
    broadcastTo S1024x1024 v h (ix2 r l) = v (ix2 r 0) := by
  refine broadcastTo_apply v h (ix2 r l) (ix2 r (0 : Fin 1)) fun ax => ?_
  match ax with
  | ⟨0, _⟩ =>
    show r.val = if (1024 : Nat) = 1 then 0 else r.val
    rw [if_neg (by decide)]
  | ⟨1, _⟩ => rfl

/-! ## The two sums of squares and the row minimum -/

/-- The sum along the three coordinates of a row. -/
theorem rowsum_apply (v : FVec Ideal S1024x3 .f32) (h : S1024x3.Reduces [1] S1024) (hφ : FKind.Formats .f32)
    (hacc : (0x00000000#32 : BitVec 32) = FKind.add.neutral .f32 hφ) (r : Fin 1024) :
    multiReduction .add [1] S1024 v 0x00000000#32 h hφ hacc (ix1 r) = ∑ d : Fin 3, v (ix2 r d) := by
  refine (Ideal.multiReduction_add_single v 0x00000000#32 h hφ hacc (ix1 r)).trans ?_
  refine Finset.sum_congr rfl fun d _ => ?_
  exact congrArg v (funext fun a => Fin.ext (by match a with | ⟨0, _⟩ => rfl | ⟨1, _⟩ => rfl))

/-- The sum along the three coordinates of a column. -/
theorem colsum_apply (v : FVec Ideal S3x1024 .f32) (h : S3x1024.Reduces [0] S1024) (hφ : FKind.Formats .f32)
    (hacc : (0x00000000#32 : BitVec 32) = FKind.add.neutral .f32 hφ) (l : Fin 1024) :
    multiReduction .add [0] S1024 v 0x00000000#32 h hφ hacc (ix1 l) = ∑ d : Fin 3, v (ix2 d l) := by
  refine (Ideal.multiReduction_add_single v 0x00000000#32 h hφ hacc (ix1 l)).trans ?_
  refine Finset.sum_congr rfl fun d _ => ?_
  exact congrArg v (funext fun a => Fin.ext (by match a with | ⟨0, _⟩ => rfl | ⟨1, _⟩ => rfl))

/-- The least entry of a row, folded from +∞. -/
theorem rowmin_apply (v : FVec Ideal S1024x1024 .f32) (h : S1024x1024.Reduces [1] S1024) (hφ : FKind.Formats .f32)
    (hacc : (0x7F800000#32 : BitVec 32) = FKind.minimumf.neutral .f32 hφ) (r : Fin 1024) :
    multiReduction .minimumf [1] S1024 v 0x7F800000#32 h hφ hacc (ix1 r) = Finset.univ.inf fun l : Fin 1024 => v (ix2 r l) := by
  refine (multiReduction_minimumf_eq_fold v 0x7F800000#32 h hφ hacc (ix1 r)).trans ?_
  refine (h.fold_filter_drop_single _ _ v (ix1 r)).trans ?_
  show (Finset.univ : Finset (Fin 1024)).fold (fun x y : EReal => min x y) (Ideal.ofBits .f32 0x7F800000#32) (v ∘ h.lift (ix1 r)) = _
  rw [ofBits_inf]
  show (Finset.univ : Finset (Fin 1024)).fold (fun x y : EReal => x ⊓ y) ⊤ (v ∘ h.lift (ix1 r)) = _
  refine Finset.inf_congr rfl fun l _ => ?_
  exact congrArg v (funext fun a => Fin.ext (by match a with | ⟨0, _⟩ => rfl | ⟨1, _⟩ => rfl))

/-! ## The lowered running minimum -/

/-- The running minimum after a grid point: row r's old value against the least of its 1024 clamped squared
    distances in this tile. -/
theorem pay2_apply0 (a : Vec Ideal S1x1024x3 .f32) (bT : Vec Ideal S1x3x1024 .f32) (s : Vec Ideal S1024x1 .f32) (r : Fin 1024) :
    k0_pay2 (F := Ideal) a bT s (ix2 r 0) = min (s (ix2 r 0)) (Finset.univ.inf fun l : Fin 1024 => tileTerm a bT r l) := by
  unfold k0_pay2
  rw [shapeCast_self]
  refine congrArg (min (s (ix2 r 0))) ?_
  refine (cast_col_apply _ _ r 0).trans ?_
  refine (rowmin_apply _ _ _ _ r).trans ?_
  refine Finset.inf_congr rfl fun l _ => ?_
  unfold tileTerm
  refine congrArg₂ max ?_ rfl
  refine congrArg₂ (fun x y : EReal => x - y) (congrArg₂ (fun x y : EReal => x + y) ?_ ?_)
    (congrArg (fun y : EReal => Ideal.ofBits .f32 0x40000000#32 * y) ?_)
  · -- ‖a r‖², spread along the row
    refine (bcast_col_apply _ _ r l).trans ?_
    refine (cast_col_apply _ _ r 0).trans ?_
    refine (rowsum_apply _ _ _ _ r).trans ?_
    refine Finset.sum_congr rfl fun d _ => ?_
    refine (mulf_apply _ _ _).trans ?_
    exact congrArg₂ (fun x y : EReal => x * y) (shapeCast_1ab_ab_apply a _ r d) (shapeCast_1ab_ab_apply a _ r d)
  · -- ‖b l‖², spread along the column
    refine (broadcastTo_1b_ab_apply _ _ r l).trans ?_
    refine (shapeCast_a_1a_apply _ _ 0 l).trans ?_
    refine (colsum_apply _ _ _ _ l).trans ?_
    refine Finset.sum_congr rfl fun d _ => ?_
    refine (mulf_apply _ _ _).trans ?_
    exact congrArg₂ (fun x y : EReal => x * y) (shapeCast_1ab_ab_apply bT _ d l) (shapeCast_1ab_ab_apply bT _ d l)
  · -- ⟨a r, b l⟩
    refine (xy_apply _ _ r l).trans ?_
    refine Finset.sum_congr rfl fun d _ => ?_
    exact congrArg₂ (fun x y : EReal => x * y) (shapeCast_1ab_ab_apply a _ r d) (shapeCast_1ab_ab_apply bT _ d l)

theorem pay2_apply1 (a : Vec Ideal S1x1024x3 .f32) (bT : Vec Ideal S1x3x1024 .f32) (s : Vec Ideal S1024x1 .f32) (r : Fin 1024) :
    k1_pay2 (F := Ideal) a bT s (ix2 r 0) = min (s (ix2 r 0)) (Finset.univ.inf fun l : Fin 1024 => tileTerm a bT r l) := by
  rw [k1_pay2_eq]; exact pay2_apply0 a bT s r

/-! ## Four tiles -/

/-- Four tiles' minima folded from +∞, one after the other, are the infimum over all 4096 columns. -/
theorem inf_four_tiles (f : Fin 4096 → EReal) :
    min (min (min (min ⊤ (Finset.univ.inf fun l : Fin 1024 => f ⟨0 * 1024 + l.val, by omega⟩))
                       (Finset.univ.inf fun l : Fin 1024 => f ⟨1 * 1024 + l.val, by omega⟩))
                  (Finset.univ.inf fun l : Fin 1024 => f ⟨2 * 1024 + l.val, by omega⟩))
             (Finset.univ.inf fun l : Fin 1024 => f ⟨3 * 1024 + l.val, by omega⟩)
      = Finset.univ.inf f := by
  apply le_antisymm
  · refine Finset.le_inf fun m _ => ?_
    have hm := m.isLt
    by_cases h0 : m.val < 1024
    · refine (min_le_left _ _).trans ((min_le_left _ _).trans ((min_le_left _ _).trans ((min_le_right _ _).trans ?_)))
      refine (Finset.inf_le (Finset.mem_univ (⟨m.val, h0⟩ : Fin 1024))).trans (le_of_eq (congrArg f (Fin.ext ?_)))
      show 0 * 1024 + m.val = m.val
      omega
    · by_cases h1 : m.val < 2048
      · refine (min_le_left _ _).trans ((min_le_left _ _).trans ((min_le_right _ _).trans ?_))
        refine (Finset.inf_le (Finset.mem_univ (⟨m.val - 1024, by omega⟩ : Fin 1024))).trans (le_of_eq (congrArg f (Fin.ext ?_)))
        show 1 * 1024 + (m.val - 1024) = m.val
        omega
      · by_cases h2 : m.val < 3072
        · refine (min_le_left _ _).trans ((min_le_right _ _).trans ?_)
          refine (Finset.inf_le (Finset.mem_univ (⟨m.val - 2048, by omega⟩ : Fin 1024))).trans (le_of_eq (congrArg f (Fin.ext ?_)))
          show 2 * 1024 + (m.val - 2048) = m.val
          omega
        · refine (min_le_right _ _).trans ?_
          refine (Finset.inf_le (Finset.mem_univ (⟨m.val - 3072, by omega⟩ : Fin 1024))).trans (le_of_eq (congrArg f (Fin.ext ?_)))
          show 3 * 1024 + (m.val - 3072) = m.val
          omega
  · refine le_min (le_min (le_min (le_min le_top ?_) ?_) ?_) ?_ <;>
      exact Finset.le_inf fun l _ => Finset.inf_le (Finset.mem_univ _)

end Cert.KernelIdeal.Tile

end
-- ==== Proof.NearestT.lean ====
/-
  The nearest-neighbour column a call writes, as one function of its two arrays.

  A call is handed a query cloud `X` (entry (b, p, d)) and a key cloud ALREADY TRANSPOSED, `YT` (entry (b, d, q)). For
  query point `p` of batch `b` the clamped squared distance to key point `q` is
  `max (‖X_p‖² + ‖YT_q‖² − 2⟨X_p, YT_q⟩) 0`, and the call's output array [8, 4096, 1] holds at (b, p, 0) the infimum
  of these over the 4096 key points.
-/
import Idealize.ShloMosaic.PureOps.Ideal
import Idealize.ShloMosaic.Lib.ValueIdx

noncomputable section

namespace Cert.NearestT

open Idealize.ShloMosaic Idealize.ShloMosaic.ValueIdx

/-- The clamped squared distance from query point `p` to key point `q` of batch `b`, the keys read transposed. -/
def sqDistT (X : (⟨3, ![8, 4096, 3]⟩ : Shape).Idx → EReal) (YT : (⟨3, ![8, 3, 4096]⟩ : Shape).Idx → EReal)
    (b : Fin 8) (p q : Fin 4096) : EReal :=
  max (((∑ d : Fin 3, X (ix3 b p d) * X (ix3 b p d)) + (∑ d : Fin 3, YT (ix3 b d q) * YT (ix3 b d q)))
        - Ideal.ofBits .f32 0x40000000#32 * (∑ d : Fin 3, X (ix3 b p d) * YT (ix3 b d q))) (Ideal.ofBits .f32 0x00000000#32)

/-- Its infimum over the key points. -/
def nearestT (X : (⟨3, ![8, 4096, 3]⟩ : Shape).Idx → EReal) (YT : (⟨3, ![8, 3, 4096]⟩ : Shape).Idx → EReal)
    (b : Fin 8) (p : Fin 4096) : EReal :=
  Finset.univ.inf fun q : Fin 4096 => sqDistT X YT b p q

/-- The output array: the infimum at (b, p, 0). -/
def column (X : (⟨3, ![8, 4096, 3]⟩ : Shape).Idx → EReal) (YT : (⟨3, ![8, 3, 4096]⟩ : Shape).Idx → EReal) :
    (⟨3, ![8, 4096, 1]⟩ : Shape).Idx → EReal :=
  fun i => nearestT X YT (i 0) (i 1)

theorem column_apply (X : (⟨3, ![8, 4096, 3]⟩ : Shape).Idx → EReal) (YT : (⟨3, ![8, 3, 4096]⟩ : Shape).Idx → EReal)
    (b : Fin 8) (p : Fin 4096) (z : Fin 1) : column X YT (ix3 b p z) = nearestT X YT b p := rfl

end Cert.NearestT

end
-- ==== Proof.KernelIdeal.Value0.lean ====
/-
  The first nearest-neighbour call's output array after the run, as one function of its two input arrays, over the
  extended reals.

  A grid point `t` of 128 is (batch `t / 16`, row tile `t / 4 % 4`, column tile `t % 4`). Its row block is rows
  (t / 4 % 4) · 1024 … + 1023 of batch t / 16 of the query array, its column block columns (t % 4) · 1024 … + 1023 of
  that batch of the transposed key array; so an entry of its tile is the clamped squared distance between one query
  point and one key point of the arrays. The running minimum restarts at column tile 0 and is lowered by each tile's
  row minima, so at column tile 3 it is, row by row, the infimum over all 4096 key points. That point writes it to rows
  (t / 4 % 4) · 1024 … of batch t / 16 of the output; the 32 such points' blocks tile the output array.
-/
import proofs.«150788_j62191126446336_1_alg».proof.Proof.KernelIdeal.Frame0
import proofs.«150788_j62191126446336_1_alg».proof.Proof.TileValue
import proofs.«150788_j62191126446336_1_alg».proof.Proof.NearestT
import Idealize.ShloMosaic.Lib.ValueIdx
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal.Tile

local notation "𝕄" => MT nD τ sig Unit (Elt Ideal) ℕ (UR sig nD τ) ℕ

/-! ## Where a point's blocks lie -/

/-- The printed index maps over the grid: point `t` is batch `t / 16`, row tile `t / 4 % 4`, column tile `t % 4`. -/
theorem idx_facts0 : ∀ t : Fin cfg0.N,
    win0_0.index t (0 : Fin 3) = t.val / 16 ∧ win0_0.index t (1 : Fin 3) = t.val / 4 % 4 ∧ win0_0.index t (2 : Fin 3) = 0
    ∧ win0_1.index t (0 : Fin 3) = t.val / 16 ∧ win0_1.index t (1 : Fin 3) = 0 ∧ win0_1.index t (2 : Fin 3) = t.val % 4
    ∧ win0_2.index t (0 : Fin 3) = t.val / 16 ∧ win0_2.index t (1 : Fin 3) = t.val / 4 % 4 ∧ win0_2.index t (2 : Fin 3) = 0 :=
  (by decide +kernel : ∀ t : Fin grid0.N, _)

section AtEntry

-- the contents of the buffers when the call is entered
variable (V : (c : Dev nD) → (b : Ref sig .tc) → Buf (Elt Ideal) ((c : Thread nD τ).loc b))

/-- Entry (r, d) of the row block at point `t` is entry (t / 16, (t / 4 % 4) · 1024 + r, d) of the query array. -/
theorem iblk0_0_apply (c : Dev nD) (t : Fin cfg0.N) (r : Fin 1024) (d : Fin 3) (b : Fin 8) (p : Fin 4096)
    (hb : b.val = t.val / 16) (hp : p.val = t.val / 4 % 4 * 1024 + r.val) :
    iblk0 V c 0 t (ix3 0 r d) = V c (Pipeline.arrRef spec0 0) (ix3 b p d) := by
  unfold iblk0
  show V c (Pipeline.arrRef spec0 0) (((cfg0.win 0).blk t).view.emb (ix3 0 r d)) = _
  refine congrArg _ (funext fun a => Fin.ext ?_)
  obtain ⟨e0, e1, e2, -⟩ := idx_facts0 t
  match a with
  | ⟨0, _⟩ => show win0_0.index t (0 : Fin 3) * 1 + 1 * 0 = b.val; omega
  | ⟨1, _⟩ => show win0_0.index t (1 : Fin 3) * 1024 + 1 * r.val = p.val; omega
  | ⟨2, _⟩ => show win0_0.index t (2 : Fin 3) * 3 + 1 * d.val = d.val; omega

/-- Entry (d, l) of the column block at point `t` is entry (t / 16, d, (t % 4) · 1024 + l) of the transposed key array. -/
theorem iblk0_1_apply (c : Dev nD) (t : Fin cfg0.N) (d : Fin 3) (l : Fin 1024) (b : Fin 8) (q : Fin 4096)
    (hb : b.val = t.val / 16) (hq : q.val = t.val % 4 * 1024 + l.val) :
    iblk0 V c 1 t (ix3 0 d l) = V c (Pipeline.arrRef spec0 1) (ix3 b d q) := by
  unfold iblk0
  show V c (Pipeline.arrRef spec0 1) (((cfg0.win 1).blk t).view.emb (ix3 0 d l)) = _
  refine congrArg _ (funext fun a => Fin.ext ?_)
  obtain ⟨-, -, -, e0, e1, e2, -⟩ := idx_facts0 t
  match a with
  | ⟨0, _⟩ => show win0_1.index t (0 : Fin 3) * 1 + 1 * 0 = b.val; omega
  | ⟨1, _⟩ => show win0_1.index t (1 : Fin 3) * 3 + 1 * d.val = d.val; omega
  | ⟨2, _⟩ => show win0_1.index t (2 : Fin 3) * 1024 + 1 * l.val = q.val; omega

/-- So an entry of the tile at point `t` is the clamped squared distance between query point (t / 4 % 4) · 1024 + r and
    key point (t % 4) · 1024 + l of batch t / 16. -/
theorem tileTerm_blk0 (c : Dev nD) (t : Fin cfg0.N) (r l : Fin 1024) (b : Fin 8) (p q : Fin 4096)
    (hb : b.val = t.val / 16) (hp : p.val = t.val / 4 % 4 * 1024 + r.val) (hq : q.val = t.val % 4 * 1024 + l.val) :
    tileTerm (iblk0 V c 0 t) (iblk0 V c 1 t) r l
      = Cert.NearestT.sqDistT (V c (Pipeline.arrRef spec0 0)) (V c (Pipeline.arrRef spec0 1)) b p q := by
  unfold tileTerm Cert.NearestT.sqDistT
  have ea : ∀ d : Fin 3, iblk0 V c 0 t (ix3 0 r d) = V c (Pipeline.arrRef spec0 0) (ix3 b p d) :=
    fun d => iblk0_0_apply V c t r d b p hb hp
  have eb : ∀ d : Fin 3, iblk0 V c 1 t (ix3 0 d l) = V c (Pipeline.arrRef spec0 1) (ix3 b d q) :=
    fun d => iblk0_1_apply V c t d l b q hb hq
  simp only [ea, eb]

/-! ## The running minimum at a last column tile -/

/-- Off a first column tile the running minimum of row `r` is the earlier one lowered by this tile's row minimum. -/
theorem acc0_step_apply (c : Dev nD) (t : Fin cfg0.N) (h0 : ¬t.val % 4 = 0) (r : Fin 1024) :
    acc0 V c t.val t.isLt (ix2 r 0)
      = min (acc0 V c (t.val - 1) (Nat.lt_of_le_of_lt (Nat.sub_le _ _) t.isLt) (ix2 r 0))
          (Finset.univ.inf fun l : Fin 1024 => tileTerm (iblk0 V c 0 t) (iblk0 V c 1 t) r l) :=
  (congrFun (acc0_step V c t h0) (ix2 r 0)).trans (pay2_apply0 _ _ _ r)

/-- At a first column tile it is +∞ lowered by this tile's row minimum. -/
theorem acc0_reset_apply (c : Dev nD) (t : Fin cfg0.N) (h0 : t.val % 4 = 0) (r : Fin 1024) :
    acc0 V c t.val t.isLt (ix2 r 0)
      = min ⊤ (Finset.univ.inf fun l : Fin 1024 => tileTerm (iblk0 V c 0 t) (iblk0 V c 1 t) r l) :=
  (congrFun (acc0_reset V c t h0) (ix2 r 0)).trans
    ((pay2_apply0 _ _ _ r).trans (congrArg (fun x : EReal => min x _) (pay1_apply0 (ix2 r 0))))

/-- At a last column tile the running minimum of row `r` has met all four column tiles of its row tile: it is the
    infimum, over the 4096 key points, of the clamped squared distances from query point (t / 4 % 4) · 1024 + r. -/
theorem acc0_last (c : Dev nD) (t : Fin cfg0.N) (h3 : t.val % 4 = 3) (r : Fin 1024) (b : Fin 8) (p : Fin 4096)
    (hb : b.val = t.val / 16) (hp : p.val = t.val / 4 % 4 * 1024 + r.val) :
    acc0 V c t.val t.isLt (ix2 r 0)
      = Cert.NearestT.nearestT (V c (Pipeline.arrRef spec0 0)) (V c (Pipeline.arrRef spec0 1)) b p := by
  have h1lt : t.val - 1 < cfg0.N := Nat.lt_of_le_of_lt (Nat.sub_le _ _) t.isLt
  have h2lt : t.val - 1 - 1 < cfg0.N := Nat.lt_of_le_of_lt (Nat.sub_le _ _) h1lt
  have h3lt : t.val - 1 - 1 - 1 < cfg0.N := Nat.lt_of_le_of_lt (Nat.sub_le _ _) h2lt
  refine (acc0_step_apply V c t (by omega) r).trans ?_
  refine (congrArg (fun x : EReal => min x _) ((acc0_step_apply V c ⟨t.val - 1, h1lt⟩ (by show ¬(t.val - 1) % 4 = 0; omega) r).trans
    (congrArg (fun x : EReal => min x _) ((acc0_step_apply V c ⟨t.val - 1 - 1, h2lt⟩ (by show ¬(t.val - 1 - 1) % 4 = 0; omega) r).trans
      (congrArg (fun x : EReal => min x _) (acc0_reset_apply V c ⟨t.val - 1 - 1 - 1, h3lt⟩ (by show (t.val - 1 - 1 - 1) % 4 = 0; omega) r)))))).trans ?_
  unfold Cert.NearestT.nearestT
  refine Eq.trans ?_ (inf_four_tiles fun q : Fin 4096 =>
    Cert.NearestT.sqDistT (V c (Pipeline.arrRef spec0 0)) (V c (Pipeline.arrRef spec0 1)) b p q)
  refine congrArg₂ min (congrArg₂ min (congrArg₂ min (congrArg (min ⊤) ?_) ?_) ?_) ?_
  · exact Finset.inf_congr rfl fun l _ => tileTerm_blk0 V c ⟨t.val - 1 - 1 - 1, h3lt⟩ r l b p ⟨0 * 1024 + l.val, by omega⟩
      (by show b.val = (t.val - 1 - 1 - 1) / 16; omega) (by show p.val = (t.val - 1 - 1 - 1) / 4 % 4 * 1024 + r.val; omega)
      (by show 0 * 1024 + l.val = (t.val - 1 - 1 - 1) % 4 * 1024 + l.val; omega)
  · exact Finset.inf_congr rfl fun l _ => tileTerm_blk0 V c ⟨t.val - 1 - 1, h2lt⟩ r l b p ⟨1 * 1024 + l.val, by omega⟩
      (by show b.val = (t.val - 1 - 1) / 16; omega) (by show p.val = (t.val - 1 - 1) / 4 % 4 * 1024 + r.val; omega)
      (by show 1 * 1024 + l.val = (t.val - 1 - 1) % 4 * 1024 + l.val; omega)
  · exact Finset.inf_congr rfl fun l _ => tileTerm_blk0 V c ⟨t.val - 1, h1lt⟩ r l b p ⟨2 * 1024 + l.val, by omega⟩
      (by show b.val = (t.val - 1) / 16; omega) (by show p.val = (t.val - 1) / 4 % 4 * 1024 + r.val; omega)
      (by show 2 * 1024 + l.val = (t.val - 1) % 4 * 1024 + l.val; omega)
  · exact Finset.inf_congr rfl fun l _ => tileTerm_blk0 V c t r l b p ⟨3 * 1024 + l.val, by omega⟩
      hb hp (by show 3 * 1024 + l.val = t.val % 4 * 1024 + l.val; omega)

/-! ## What a last column tile writes back, and the array after the run -/

/-- A point that writes back writes its block of the nearest-neighbour column: row `r` of the block is query point
    (t / 4 % 4) · 1024 + r of batch t / 16. -/
theorem flushed0_eq (c : Dev nD) (t : Fin cfg0.N) (hf : (cfg0.win 2).flush t = true) :
    (dat0 V c).flushed 2 t = ((cfg0.win 2).blk t).view.read (Elt Ideal)
      (Cert.NearestT.column (V c (Pipeline.arrRef spec0 0)) (V c (Pipeline.arrRef spec0 1))) := by
  have h3 : t.val % 4 = 3 := (flush0_2 t).mp hf
  have hN : t.val < 128 := lt_of_lt_of_eq t.isLt (show cfg0.N = 128 from N_0)
  show (cfg0.win 2).cut (grid0.coords t) ((dat0 V c).after 2 t) = _
  rw [after0_2]
  funext j
  obtain ⟨u, r, z, rfl⟩ : ∃ (u : Fin 1) (r : Fin 1024) (z : Fin 1), j = ix3 u r z := ⟨j 0, j 1, j 2, eq_ix3 j⟩
  obtain rfl : u = 0 := Subsingleton.elim _ _
  obtain rfl : z = 0 := Subsingleton.elim _ _
  show k0_pay3 (acc0 V c t.val t.isLt) (ix3 0 r 0)
    = Cert.NearestT.column (V c (Pipeline.arrRef spec0 0)) (V c (Pipeline.arrRef spec0 1)) (((cfg0.win 2).blk t).view.emb (ix3 0 r 0))
  obtain ⟨-, -, -, -, -, -, e0, e1, e2⟩ := idx_facts0 t
  have hemb : ((cfg0.win 2).blk t).view.emb (ix3 0 r 0)
      = ix3 (⟨t.val / 16, by omega⟩ : Fin 8) (⟨t.val / 4 % 4 * 1024 + r.val, by omega⟩ : Fin 4096) (0 : Fin 1) :=
    funext fun a => Fin.ext (by
      match a with
      | ⟨0, _⟩ => show win0_2.index t (0 : Fin 3) * 1 + 1 * 0 = t.val / 16; omega
      | ⟨1, _⟩ => show win0_2.index t (1 : Fin 3) * 1024 + 1 * r.val = t.val / 4 % 4 * 1024 + r.val; omega
      | ⟨2, _⟩ => show win0_2.index t (2 : Fin 3) * 1 + 1 * 0 = 0; omega)
  rw [hemb, Cert.NearestT.column_apply]
  exact (pay3_apply0 _ r).trans (acc0_last V c t h3 r _ _ rfl rfl)

/-- Every entry (b, n, 0) of the output array lies in the block of the last column tile of batch `b`, row tile n / 1024. -/
theorem cover0 (i : S8x4096x1.Idx) :
    ∃ t : Fin cfg0.N, (cfg0.win 2).flush t = true ∧ i ∈ ((cfg0.win 2).blk t).view.set := by
  have hN : cfg0.N = 128 := N_0
  have h0 : (i 0).val < 8 := (i 0).isLt
  have h1 : (i 1).val < 4096 := (i 1).isLt
  have h2 : (i 2).val < 1 := (i 2).isLt
  have ht : (i 0).val * 16 + (i 1).val / 1024 * 4 + 3 < cfg0.N := by omega
  refine ⟨⟨(i 0).val * 16 + (i 1).val / 1024 * 4 + 3, ht⟩, (flush0_2 _).mpr (by show ((i 0).val * 16 + (i 1).val / 1024 * 4 + 3) % 4 = 3; omega), ?_⟩
  obtain ⟨-, -, -, -, -, -, e0, e1, e2⟩ := idx_facts0 ⟨(i 0).val * 16 + (i 1).val / 1024 * 4 + 3, ht⟩
  show i ∈ ((View.whole main_v2).slice (win0_2.rect ⟨(i 0).val * 16 + (i 1).val / 1024 * 4 + 3, ht⟩)).set
  rw [View.set_slice_whole, Rect.mem_set_unit]
  intro a
  match a with
  | ⟨0, _⟩ =>
    show win0_2.index ⟨(i 0).val * 16 + (i 1).val / 1024 * 4 + 3, ht⟩ (0 : Fin 3) * 1 ≤ (i 0).val
      ∧ (i 0).val < win0_2.index ⟨(i 0).val * 16 + (i 1).val / 1024 * 4 + 3, ht⟩ (0 : Fin 3) * 1 + 1
    rw [e0]; show ((i 0).val * 16 + (i 1).val / 1024 * 4 + 3) / 16 * 1 ≤ (i 0).val ∧ (i 0).val < ((i 0).val * 16 + (i 1).val / 1024 * 4 + 3) / 16 * 1 + 1
    omega
  | ⟨1, _⟩ =>
    show win0_2.index ⟨(i 0).val * 16 + (i 1).val / 1024 * 4 + 3, ht⟩ (1 : Fin 3) * 1024 ≤ (i 1).val
      ∧ (i 1).val < win0_2.index ⟨(i 0).val * 16 + (i 1).val / 1024 * 4 + 3, ht⟩ (1 : Fin 3) * 1024 + 1024
    rw [e1]; show ((i 0).val * 16 + (i 1).val / 1024 * 4 + 3) / 4 % 4 * 1024 ≤ (i 1).val ∧ (i 1).val < ((i 0).val * 16 + (i 1).val / 1024 * 4 + 3) / 4 % 4 * 1024 + 1024
    omega
  | ⟨2, _⟩ =>
    show win0_2.index ⟨(i 0).val * 16 + (i 1).val / 1024 * 4 + 3, ht⟩ (2 : Fin 3) * 1 ≤ (i 2).val
      ∧ (i 2).val < win0_2.index ⟨(i 0).val * 16 + (i 1).val / 1024 * 4 + 3, ht⟩ (2 : Fin 3) * 1 + 1
    rw [e2]; omega

/-- The output array after the call: at (b, n, 0) the infimum over the key points of batch `b` of the clamped squared
    distances from query point `n`. -/
theorem final0 (c : Dev nD) :
    (dat0 (F := Ideal) V c).arrAt 2 cfg0.N = Cert.NearestT.column (V c (Pipeline.arrRef spec0 0)) (V c (Pipeline.arrRef spec0 1)) :=
  (dat0 V c).arrAt_eq_of_cover 2 _ (flushed0_eq V c) cover0

end AtEntry

end Cert.KernelIdeal.Hand
end
-- ==== Proof.KernelIdeal.Value1.lean ====
/-
  The second nearest-neighbour call's output array after the run, as one function of its two input arrays, over the
  extended reals.

  A grid point `t` of 128 is (batch `t / 16`, row tile `t / 4 % 4`, column tile `t % 4`). Its row block is rows
  (t / 4 % 4) · 1024 … + 1023 of batch t / 16 of the query array, its column block columns (t % 4) · 1024 … + 1023 of
  that batch of the transposed key array; so an entry of its tile is the clamped squared distance between one query
  point and one key point of the arrays. The running minimum restarts at column tile 0 and is lowered by each tile's
  row minima, so at column tile 3 it is, row by row, the infimum over all 4096 key points. That point writes it to rows
  (t / 4 % 4) · 1024 … of batch t / 16 of the output; the 32 such points' blocks tile the output array.
-/
import proofs.«150788_j62191126446336_1_alg».proof.Proof.KernelIdeal.Frame1
import proofs.«150788_j62191126446336_1_alg».proof.Proof.TileValue
import proofs.«150788_j62191126446336_1_alg».proof.Proof.NearestT
import Idealize.ShloMosaic.Lib.ValueIdx
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal.Tile

local notation "𝕄" => MT nD τ sig Unit (Elt Ideal) ℕ (UR sig nD τ) ℕ

/-! ## Where a point's blocks lie -/

/-- The printed index maps over the grid: point `t` is batch `t / 16`, row tile `t / 4 % 4`, column tile `t % 4`. -/
theorem idx_facts1 : ∀ t : Fin cfg1.N,
    win1_0.index t (0 : Fin 3) = t.val / 16 ∧ win1_0.index t (1 : Fin 3) = t.val / 4 % 4 ∧ win1_0.index t (2 : Fin 3) = 0
    ∧ win1_1.index t (0 : Fin 3) = t.val / 16 ∧ win1_1.index t (1 : Fin 3) = 0 ∧ win1_1.index t (2 : Fin 3) = t.val % 4
    ∧ win1_2.index t (0 : Fin 3) = t.val / 16 ∧ win1_2.index t (1 : Fin 3) = t.val / 4 % 4 ∧ win1_2.index t (2 : Fin 3) = 0 :=
  (by decide +kernel : ∀ t : Fin grid1.N, _)

section AtEntry

-- the contents of the buffers when the call is entered
variable (V : (c : Dev nD) → (b : Ref sig .tc) → Buf (Elt Ideal) ((c : Thread nD τ).loc b))

/-- Entry (r, d) of the row block at point `t` is entry (t / 16, (t / 4 % 4) · 1024 + r, d) of the query array. -/
theorem iblk1_0_apply (c : Dev nD) (t : Fin cfg1.N) (r : Fin 1024) (d : Fin 3) (b : Fin 8) (p : Fin 4096)
    (hb : b.val = t.val / 16) (hp : p.val = t.val / 4 % 4 * 1024 + r.val) :
    iblk1 V c 0 t (ix3 0 r d) = V c (Pipeline.arrRef spec1 0) (ix3 b p d) := by
  unfold iblk1
  show V c (Pipeline.arrRef spec1 0) (((cfg1.win 0).blk t).view.emb (ix3 0 r d)) = _
  refine congrArg _ (funext fun a => Fin.ext ?_)
  obtain ⟨e0, e1, e2, -⟩ := idx_facts1 t
  match a with
  | ⟨0, _⟩ => show win1_0.index t (0 : Fin 3) * 1 + 1 * 0 = b.val; omega
  | ⟨1, _⟩ => show win1_0.index t (1 : Fin 3) * 1024 + 1 * r.val = p.val; omega
  | ⟨2, _⟩ => show win1_0.index t (2 : Fin 3) * 3 + 1 * d.val = d.val; omega

/-- Entry (d, l) of the column block at point `t` is entry (t / 16, d, (t % 4) · 1024 + l) of the transposed key array. -/
theorem iblk1_1_apply (c : Dev nD) (t : Fin cfg1.N) (d : Fin 3) (l : Fin 1024) (b : Fin 8) (q : Fin 4096)
    (hb : b.val = t.val / 16) (hq : q.val = t.val % 4 * 1024 + l.val) :
    iblk1 V c 1 t (ix3 0 d l) = V c (Pipeline.arrRef spec1 1) (ix3 b d q) := by
  unfold iblk1
  show V c (Pipeline.arrRef spec1 1) (((cfg1.win 1).blk t).view.emb (ix3 0 d l)) = _
  refine congrArg _ (funext fun a => Fin.ext ?_)
  obtain ⟨-, -, -, e0, e1, e2, -⟩ := idx_facts1 t
  match a with
  | ⟨0, _⟩ => show win1_1.index t (0 : Fin 3) * 1 + 1 * 0 = b.val; omega
  | ⟨1, _⟩ => show win1_1.index t (1 : Fin 3) * 3 + 1 * d.val = d.val; omega
  | ⟨2, _⟩ => show win1_1.index t (2 : Fin 3) * 1024 + 1 * l.val = q.val; omega

/-- So an entry of the tile at point `t` is the clamped squared distance between query point (t / 4 % 4) · 1024 + r and
    key point (t % 4) · 1024 + l of batch t / 16. -/
theorem tileTerm_blk1 (c : Dev nD) (t : Fin cfg1.N) (r l : Fin 1024) (b : Fin 8) (p q : Fin 4096)
    (hb : b.val = t.val / 16) (hp : p.val = t.val / 4 % 4 * 1024 + r.val) (hq : q.val = t.val % 4 * 1024 + l.val) :
    tileTerm (iblk1 V c 0 t) (iblk1 V c 1 t) r l
      = Cert.NearestT.sqDistT (V c (Pipeline.arrRef spec1 0)) (V c (Pipeline.arrRef spec1 1)) b p q := by
  unfold tileTerm Cert.NearestT.sqDistT
  have ea : ∀ d : Fin 3, iblk1 V c 0 t (ix3 0 r d) = V c (Pipeline.arrRef spec1 0) (ix3 b p d) :=
    fun d => iblk1_0_apply V c t r d b p hb hp
  have eb : ∀ d : Fin 3, iblk1 V c 1 t (ix3 0 d l) = V c (Pipeline.arrRef spec1 1) (ix3 b d q) :=
    fun d => iblk1_1_apply V c t d l b q hb hq
  simp only [ea, eb]

/-! ## The running minimum at a last column tile -/

/-- Off a first column tile the running minimum of row `r` is the earlier one lowered by this tile's row minimum. -/
theorem acc1_step_apply (c : Dev nD) (t : Fin cfg1.N) (h0 : ¬t.val % 4 = 0) (r : Fin 1024) :
    acc1 V c t.val t.isLt (ix2 r 0)
      = min (acc1 V c (t.val - 1) (Nat.lt_of_le_of_lt (Nat.sub_le _ _) t.isLt) (ix2 r 0))
          (Finset.univ.inf fun l : Fin 1024 => tileTerm (iblk1 V c 0 t) (iblk1 V c 1 t) r l) :=
  (congrFun (acc1_step V c t h0) (ix2 r 0)).trans (pay2_apply1 _ _ _ r)

/-- At a first column tile it is +∞ lowered by this tile's row minimum. -/
theorem acc1_reset_apply (c : Dev nD) (t : Fin cfg1.N) (h0 : t.val % 4 = 0) (r : Fin 1024) :
    acc1 V c t.val t.isLt (ix2 r 0)
      = min ⊤ (Finset.univ.inf fun l : Fin 1024 => tileTerm (iblk1 V c 0 t) (iblk1 V c 1 t) r l) :=
  (congrFun (acc1_reset V c t h0) (ix2 r 0)).trans
    ((pay2_apply1 _ _ _ r).trans (congrArg (fun x : EReal => min x _) (pay1_apply1 (ix2 r 0))))

/-- At a last column tile the running minimum of row `r` has met all four column tiles of its row tile: it is the
    infimum, over the 4096 key points, of the clamped squared distances from query point (t / 4 % 4) · 1024 + r. -/
theorem acc1_last (c : Dev nD) (t : Fin cfg1.N) (h3 : t.val % 4 = 3) (r : Fin 1024) (b : Fin 8) (p : Fin 4096)
    (hb : b.val = t.val / 16) (hp : p.val = t.val / 4 % 4 * 1024 + r.val) :
    acc1 V c t.val t.isLt (ix2 r 0)
      = Cert.NearestT.nearestT (V c (Pipeline.arrRef spec1 0)) (V c (Pipeline.arrRef spec1 1)) b p := by
  have h1lt : t.val - 1 < cfg1.N := Nat.lt_of_le_of_lt (Nat.sub_le _ _) t.isLt
  have h2lt : t.val - 1 - 1 < cfg1.N := Nat.lt_of_le_of_lt (Nat.sub_le _ _) h1lt
  have h3lt : t.val - 1 - 1 - 1 < cfg1.N := Nat.lt_of_le_of_lt (Nat.sub_le _ _) h2lt
  refine (acc1_step_apply V c t (by omega) r).trans ?_
  refine (congrArg (fun x : EReal => min x _) ((acc1_step_apply V c ⟨t.val - 1, h1lt⟩ (by show ¬(t.val - 1) % 4 = 0; omega) r).trans
    (congrArg (fun x : EReal => min x _) ((acc1_step_apply V c ⟨t.val - 1 - 1, h2lt⟩ (by show ¬(t.val - 1 - 1) % 4 = 0; omega) r).trans
      (congrArg (fun x : EReal => min x _) (acc1_reset_apply V c ⟨t.val - 1 - 1 - 1, h3lt⟩ (by show (t.val - 1 - 1 - 1) % 4 = 0; omega) r)))))).trans ?_
  unfold Cert.NearestT.nearestT
  refine Eq.trans ?_ (inf_four_tiles fun q : Fin 4096 =>
    Cert.NearestT.sqDistT (V c (Pipeline.arrRef spec1 0)) (V c (Pipeline.arrRef spec1 1)) b p q)
  refine congrArg₂ min (congrArg₂ min (congrArg₂ min (congrArg (min ⊤) ?_) ?_) ?_) ?_
  · exact Finset.inf_congr rfl fun l _ => tileTerm_blk1 V c ⟨t.val - 1 - 1 - 1, h3lt⟩ r l b p ⟨0 * 1024 + l.val, by omega⟩
      (by show b.val = (t.val - 1 - 1 - 1) / 16; omega) (by show p.val = (t.val - 1 - 1 - 1) / 4 % 4 * 1024 + r.val; omega)
      (by show 0 * 1024 + l.val = (t.val - 1 - 1 - 1) % 4 * 1024 + l.val; omega)
  · exact Finset.inf_congr rfl fun l _ => tileTerm_blk1 V c ⟨t.val - 1 - 1, h2lt⟩ r l b p ⟨1 * 1024 + l.val, by omega⟩
      (by show b.val = (t.val - 1 - 1) / 16; omega) (by show p.val = (t.val - 1 - 1) / 4 % 4 * 1024 + r.val; omega)
      (by show 1 * 1024 + l.val = (t.val - 1 - 1) % 4 * 1024 + l.val; omega)
  · exact Finset.inf_congr rfl fun l _ => tileTerm_blk1 V c ⟨t.val - 1, h1lt⟩ r l b p ⟨2 * 1024 + l.val, by omega⟩
      (by show b.val = (t.val - 1) / 16; omega) (by show p.val = (t.val - 1) / 4 % 4 * 1024 + r.val; omega)
      (by show 2 * 1024 + l.val = (t.val - 1) % 4 * 1024 + l.val; omega)
  · exact Finset.inf_congr rfl fun l _ => tileTerm_blk1 V c t r l b p ⟨3 * 1024 + l.val, by omega⟩
      hb hp (by show 3 * 1024 + l.val = t.val % 4 * 1024 + l.val; omega)

/-! ## What a last column tile writes back, and the array after the run -/

/-- A point that writes back writes its block of the nearest-neighbour column: row `r` of the block is query point
    (t / 4 % 4) · 1024 + r of batch t / 16. -/
theorem flushed1_eq (c : Dev nD) (t : Fin cfg1.N) (hf : (cfg1.win 2).flush t = true) :
    (dat1 V c).flushed 2 t = ((cfg1.win 2).blk t).view.read (Elt Ideal)
      (Cert.NearestT.column (V c (Pipeline.arrRef spec1 0)) (V c (Pipeline.arrRef spec1 1))) := by
  have h3 : t.val % 4 = 3 := (flush1_2 t).mp hf
  have hN : t.val < 128 := lt_of_lt_of_eq t.isLt (show cfg1.N = 128 from N_1)
  show (cfg1.win 2).cut (grid1.coords t) ((dat1 V c).after 2 t) = _
  rw [after1_2]
  funext j
  obtain ⟨u, r, z, rfl⟩ : ∃ (u : Fin 1) (r : Fin 1024) (z : Fin 1), j = ix3 u r z := ⟨j 0, j 1, j 2, eq_ix3 j⟩
  obtain rfl : u = 0 := Subsingleton.elim _ _
  obtain rfl : z = 0 := Subsingleton.elim _ _
  show k1_pay3 (acc1 V c t.val t.isLt) (ix3 0 r 0)
    = Cert.NearestT.column (V c (Pipeline.arrRef spec1 0)) (V c (Pipeline.arrRef spec1 1)) (((cfg1.win 2).blk t).view.emb (ix3 0 r 0))
  obtain ⟨-, -, -, -, -, -, e0, e1, e2⟩ := idx_facts1 t
  have hemb : ((cfg1.win 2).blk t).view.emb (ix3 0 r 0)
      = ix3 (⟨t.val / 16, by omega⟩ : Fin 8) (⟨t.val / 4 % 4 * 1024 + r.val, by omega⟩ : Fin 4096) (0 : Fin 1) :=
    funext fun a => Fin.ext (by
      match a with
      | ⟨0, _⟩ => show win1_2.index t (0 : Fin 3) * 1 + 1 * 0 = t.val / 16; omega
      | ⟨1, _⟩ => show win1_2.index t (1 : Fin 3) * 1024 + 1 * r.val = t.val / 4 % 4 * 1024 + r.val; omega
      | ⟨2, _⟩ => show win1_2.index t (2 : Fin 3) * 1 + 1 * 0 = 0; omega)
  rw [hemb, Cert.NearestT.column_apply]
  exact (pay3_apply1 _ r).trans (acc1_last V c t h3 r _ _ rfl rfl)

/-- Every entry (b, n, 0) of the output array lies in the block of the last column tile of batch `b`, row tile n / 1024. -/
theorem cover1 (i : S8x4096x1.Idx) :
    ∃ t : Fin cfg1.N, (cfg1.win 2).flush t = true ∧ i ∈ ((cfg1.win 2).blk t).view.set := by
  have hN : cfg1.N = 128 := N_1
  have h0 : (i 0).val < 8 := (i 0).isLt
  have h1 : (i 1).val < 4096 := (i 1).isLt
  have h2 : (i 2).val < 1 := (i 2).isLt
  have ht : (i 0).val * 16 + (i 1).val / 1024 * 4 + 3 < cfg1.N := by omega
  refine ⟨⟨(i 0).val * 16 + (i 1).val / 1024 * 4 + 3, ht⟩, (flush1_2 _).mpr (by show ((i 0).val * 16 + (i 1).val / 1024 * 4 + 3) % 4 = 3; omega), ?_⟩
  obtain ⟨-, -, -, -, -, -, e0, e1, e2⟩ := idx_facts1 ⟨(i 0).val * 16 + (i 1).val / 1024 * 4 + 3, ht⟩
  show i ∈ ((View.whole main_v2).slice (win1_2.rect ⟨(i 0).val * 16 + (i 1).val / 1024 * 4 + 3, ht⟩)).set
  rw [View.set_slice_whole, Rect.mem_set_unit]
  intro a
  match a with
  | ⟨0, _⟩ =>
    show win1_2.index ⟨(i 0).val * 16 + (i 1).val / 1024 * 4 + 3, ht⟩ (0 : Fin 3) * 1 ≤ (i 0).val
      ∧ (i 0).val < win1_2.index ⟨(i 0).val * 16 + (i 1).val / 1024 * 4 + 3, ht⟩ (0 : Fin 3) * 1 + 1
    rw [e0]; show ((i 0).val * 16 + (i 1).val / 1024 * 4 + 3) / 16 * 1 ≤ (i 0).val ∧ (i 0).val < ((i 0).val * 16 + (i 1).val / 1024 * 4 + 3) / 16 * 1 + 1
    omega
  | ⟨1, _⟩ =>
    show win1_2.index ⟨(i 0).val * 16 + (i 1).val / 1024 * 4 + 3, ht⟩ (1 : Fin 3) * 1024 ≤ (i 1).val
      ∧ (i 1).val < win1_2.index ⟨(i 0).val * 16 + (i 1).val / 1024 * 4 + 3, ht⟩ (1 : Fin 3) * 1024 + 1024
    rw [e1]; show ((i 0).val * 16 + (i 1).val / 1024 * 4 + 3) / 4 % 4 * 1024 ≤ (i 1).val ∧ (i 1).val < ((i 0).val * 16 + (i 1).val / 1024 * 4 + 3) / 4 % 4 * 1024 + 1024
    omega
  | ⟨2, _⟩ =>
    show win1_2.index ⟨(i 0).val * 16 + (i 1).val / 1024 * 4 + 3, ht⟩ (2 : Fin 3) * 1 ≤ (i 2).val
      ∧ (i 2).val < win1_2.index ⟨(i 0).val * 16 + (i 1).val / 1024 * 4 + 3, ht⟩ (2 : Fin 3) * 1 + 1
    rw [e2]; omega

/-- The output array after the call: at (b, n, 0) the infimum over the key points of batch `b` of the clamped squared
    distances from query point `n`. -/
theorem final1 (c : Dev nD) :
    (dat1 (F := Ideal) V c).arrAt 2 cfg1.N = Cert.NearestT.column (V c (Pipeline.arrRef spec1 0)) (V c (Pipeline.arrRef spec1 1)) :=
  (dat1 V c).arrAt_eq_of_cover 2 _ (flushed1_eq V c) cover1

end AtEntry

end Cert.KernelIdeal.Hand
end
-- ==== Proof.Spec.lean ====
/-
  The symmetric nearest-neighbour (Chamfer) distance between two batches of point clouds, over the extended reals.

  For clouds `X`, `Y` of 4096 points of ℝ³ in each of 8 batches, the clamped squared distance between point `p` of one
  and point `q` of the other is `max (‖P_p‖² + ‖Q_q‖² − 2⟨P_p, Q_q⟩) 0`; `nearest P Q b p` is its infimum over `q`;
  `meanNearest P Q` the sum of these over all 8 · 4096 points divided by 32768; the result is
  `meanNearest X Y + meanNearest Y X`. The constants 2, 0 and 32768 are kept as the float words both programs spell.
-/
import Idealize.ShloMosaic.PureOps.Ideal
import Idealize.ShloMosaic.Lib.ValueIdx

noncomputable section

namespace Cert.Spec

open Idealize.ShloMosaic Idealize.ShloMosaic.ValueIdx

/-- Eight clouds of 4096 points of ℝ³: entry (b, p, d) is coordinate `d` of point `p` of batch `b`. -/
abbrev Cloud : Type := (⟨3, ![8, 4096, 3]⟩ : Shape).Idx → EReal

/-- `‖P_p‖²` in batch `b`. -/
def sqNorm (P : Cloud) (b : Fin 8) (p : Fin 4096) : EReal := ∑ d : Fin 3, P (ix3 b p d) * P (ix3 b p d)

/-- `⟨P_p, Q_q⟩` in batch `b`. -/
def inner (P Q : Cloud) (b : Fin 8) (p q : Fin 4096) : EReal := ∑ d : Fin 3, P (ix3 b p d) * Q (ix3 b q d)

/-- The clamped squared distance `max (‖P_p‖² + ‖Q_q‖² − 2⟨P_p, Q_q⟩) 0`. -/
def sqDist (P Q : Cloud) (b : Fin 8) (p q : Fin 4096) : EReal :=
  max ((sqNorm P b p + sqNorm Q b q) - Ideal.ofBits .f32 0x40000000#32 * inner P Q b p q) (Ideal.ofBits .f32 0x00000000#32)

/-- The squared distance from point `p` of `P` to the nearest point of `Q`, in batch `b`. -/
def nearest (P Q : Cloud) (b : Fin 8) (p : Fin 4096) : EReal := Finset.univ.inf fun q : Fin 4096 => sqDist P Q b p q

/-- The mean over all points of `P` of the squared distance to the nearest point of `Q`. -/
def meanNearest (P Q : Cloud) : EReal :=
  Ideal.div (Ideal.ofBits .f32 0x00000000#32 + ∑ b : Fin 8, ∑ p : Fin 4096, nearest P Q b p) (Ideal.ofBits .f32 0x47000000#32)

/-- The symmetric distance: both directions' means added. -/
def chamfer (X Y : Cloud) : EReal := meanNearest X Y + meanNearest Y X

end Cert.Spec

end
-- ==== Proof.ColumnMean.lean ====
/-
  The host's tail of the kernel program, over the extended reals: the mean of a call's output column is the
  specification's mean of nearest distances, and the two directions' means add up to the symmetric distance.

  The host hands a call the key cloud transposed, entry (b, d, q) of the transposed array being entry (b, q, d) of the
  cloud; so the clamped squared distance read through the transposed keys is the specification's, term by term, and so
  is its infimum over the key points. The call's output array [8, 4096, 1] holds that infimum at (b, p, 0). Its last
  axis has one coordinate, so the array's indices are the pairs (b, p), and the sum over all of it, from 0, is
  0 + Σ_b Σ_p of the nearest distances; divided by 32768 this is the specification's mean.
-/
import proofs.«150788_j62191126446336_1_alg».proof.KernelIdeal
import proofs.«150788_j62191126446336_1_alg».proof.Proof.NearestT
import proofs.«150788_j62191126446336_1_alg».proof.Proof.Spec
import Idealize.ShloMosaic.PureOps.Ideal.Laws
import Idealize.ShloMosaic.Lib.ValueIdx
import Idealize.ShloMosaic.Lib.Pipeline.Value

noncomputable section

namespace Cert.ColumnMean

open Cert.KernelIdeal Cert.KernelIdeal.Facts₀
open Idealize.ShloMosaic Idealize.ShloMosaic.ValueIdx

variable [Cert.KernelIdeal.Facts]

/-- The transposed cloud at (b, d, q) is the cloud at (b, q, d). -/
theorem transpose_at (Y : FVec Ideal S8x4096x3 .f32) (b : Fin 8) (d : Fin 3) (q : Fin 4096) :
    transpose S8x3x4096 [0, 2, 1] Y transposes_S8x4096x3_S8x3x4096_0_2_1 (ix3 b d q) = Y (ix3 b q d) :=
  transpose_apply _ Y _ (ix3 b d q) (ix3 b q d) fun a => by
    match a with
    | ⟨0, _⟩ => rfl
    | ⟨1, _⟩ => rfl
    | ⟨2, _⟩ => rfl

/-- The clamped squared distance read through the transposed keys is the specification's. -/
theorem sqDistT_transpose (X Y : FVec Ideal S8x4096x3 .f32) (b : Fin 8) (p q : Fin 4096) :
    Cert.NearestT.sqDistT X (transpose S8x3x4096 [0, 2, 1] Y transposes_S8x4096x3_S8x3x4096_0_2_1) b p q
      = Cert.Spec.sqDist X Y b p q := by
  unfold Cert.NearestT.sqDistT Cert.Spec.sqDist Cert.Spec.sqNorm Cert.Spec.inner
  have h1 : (∑ d : Fin 3, transpose S8x3x4096 [0, 2, 1] Y transposes_S8x4096x3_S8x3x4096_0_2_1 (ix3 b d q)
        * transpose S8x3x4096 [0, 2, 1] Y transposes_S8x4096x3_S8x3x4096_0_2_1 (ix3 b d q))
      = ∑ d : Fin 3, Y (ix3 b q d) * Y (ix3 b q d) :=
    Finset.sum_congr rfl fun d _ => by rw [transpose_at]
  have h2 : (∑ d : Fin 3, X (ix3 b p d) * transpose S8x3x4096 [0, 2, 1] Y transposes_S8x4096x3_S8x3x4096_0_2_1 (ix3 b d q))
      = ∑ d : Fin 3, X (ix3 b p d) * Y (ix3 b q d) :=
    Finset.sum_congr rfl fun d _ => by rw [transpose_at]
  rw [h1, h2]

/-- A key cloud transposed on the host and read transposed is the cloud. -/
theorem nearestT_transpose (X Y : FVec Ideal S8x4096x3 .f32) (b : Fin 8) (p : Fin 4096) :
    Cert.NearestT.nearestT X (transpose S8x3x4096 [0, 2, 1] Y transposes_S8x4096x3_S8x3x4096_0_2_1) b p
      = Cert.Spec.nearest X Y b p := by
  unfold Cert.NearestT.nearestT Cert.Spec.nearest
  exact congrArg (Finset.univ.inf) (funext fun q => sqDistT_transpose X Y b p q)

/-- The indices of an [8, 4096, 1] array are the pairs of their first two coordinates: the last axis has one. -/
def colEquiv : S8x4096x1.Idx ≃ Fin 8 × Fin 4096 where
  toFun i := (i 0, i 1)
  invFun c := ix3 c.1 c.2 (0 : Fin 1)
  left_inv i := funext fun a => by
    match a with
    | ⟨0, _⟩ => rfl
    | ⟨1, _⟩ => rfl
    | ⟨2, _⟩ =>
      have h : (i 2).val < 1 := (i 2).isLt
      exact Fin.ext (by show 0 = (i 2).val; omega)
  right_inv _ := rfl

/-- So a sum over such an array is the double sum over the two coordinates. -/
theorem sum_column (f : S8x4096x1.Idx → EReal) :
    ∑ i, f i = ∑ b : Fin 8, ∑ p : Fin 4096, f (ix3 b p (0 : Fin 1)) := by
  rw [← Equiv.sum_comp colEquiv.symm f, Fintype.sum_prod_type]
  rfl

/-- The host's mean of a call's output column is the specification's mean of nearest distances. -/
theorem mean_column (X Y : FVec Ideal S8x4096x3 .f32) :
    Host.divf (F := Ideal)
        (Host.reduceAdd (F := Ideal)
          (Cert.NearestT.column X (transpose S8x3x4096 [0, 2, 1] Y transposes_S8x4096x3_S8x3x4096_0_2_1))
          (constant (F := Ideal) S_ .f32 0x00000000#32) reducesTo_S8x4096x1_S_d0_1_2 h_S_)
        (constant (F := Ideal) S_ .f32 0x47000000#32)
      = fun _ => Cert.Spec.meanNearest X Y := by
  funext i
  unfold Cert.Spec.meanNearest
  show Ideal.div _ (Ideal.ofBits .f32 0x47000000#32) = _
  refine congrArg (Ideal.div · _) ?_
  simp only [Host.reduceAdd, Ideal.hostReduceAdd_def]
  rw [Ideal.hostReduceAdd_total reducesTo_S8x4096x1_S_d0_1_2 (fun b => b.elim0), sum_column]
  refine congrArg (_ + ·) (Finset.sum_congr rfl fun b _ => Finset.sum_congr rfl fun p _ => ?_)
  rw [Cert.NearestT.column_apply, nearestT_transpose]

/-- Both directions added: the symmetric distance. -/
theorem sum_of_means (X Y : FVec Ideal S8x4096x3 .f32) :
    addf (F := Ideal) (φ := .f32) (fun _ : S_.Idx => Cert.Spec.meanNearest X Y) (fun _ : S_.Idx => Cert.Spec.meanNearest Y X)
      = fun _ => Cert.Spec.chamfer X Y := rfl

end Cert.ColumnMean

end
-- ==== Proof.KernelIdeal.Result.lean ====
/-
  What the program returns, at the ideal instance: the symmetric nearest-neighbour distance of its two arguments.

  The first call is entered with the first argument as its query cloud and the host's transpose of the second as its
  keys; the second call with the roles exchanged. Each call's output column is the infimum of clamped squared
  distances (its value module); the host's total of a column divided by 32768 is the specification's mean of nearest
  distances, and the two means are added.
-/
import proofs.«150788_j62191126446336_1_alg».proof.Proof.Gen.KernelIdeal.Launch
import proofs.«150788_j62191126446336_1_alg».proof.Proof.Gen.KernelIdeal.Skeleton
import proofs.«150788_j62191126446336_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Pipeline.Value
import Idealize.ShloMosaic.Lib.Ring
import Idealize.ShloMosaic.Lib.Tactic
import proofs.«150788_j62191126446336_1_alg».proof.Proof.KernelIdeal.Run
import proofs.«150788_j62191126446336_1_alg».proof.Proof.KernelIdeal.Value0
import proofs.«150788_j62191126446336_1_alg».proof.Proof.KernelIdeal.Value1
import proofs.«150788_j62191126446336_1_alg».proof.Proof.ColumnMean
import proofs.«150788_j62191126446336_1_alg».proof.Proof.Spec
import Idealize.ShloMosaic.Lib.StableHlo.Run
import Idealize.ShloMosaic.PureOps.Ideal
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ)

/-- On entry to the first call the keys' buffer holds the host's transpose of the second argument; -/
theorem W1_main_v0 (c : Dev nD) : W1 m c (Proc.devRef .tc main_v0)
    = transpose S8x3x4096 [0, 2, 1] (m ((c : Thread nD τ).loc main_arg1)) Facts₀.transposes_S8x4096x3_S8x3x4096_0_2_1 := by
  show StableHlo.after hostOps0 (fun b => m (c, b)) (Proc.devRef .tc main_v0) = _
  after_results

/-- and the second call's keys' buffer the transpose of the first. -/
theorem W1_main_v1 (c : Dev nD) : W1 m c (Proc.devRef .tc main_v1)
    = transpose S8x3x4096 [0, 2, 1] (m ((c : Thread nD τ).loc main_arg0)) Facts₀.transposes_S8x4096x3_S8x3x4096_0_2_1 := by
  show StableHlo.after hostOps0 (fun b => m (c, b)) (Proc.devRef .tc main_v1) = _
  after_results

/-- The result buffer after the nine scalar operations: each call's column totalled and divided by 32768, the two
    quotients added. -/
theorem W4_main_v8 (c : Dev nD) : W4 m c (Proc.devRef .tc main_v8)
    = addf (F := Ideal) (Host.divf (F := Ideal) (Host.reduceAdd (F := Ideal) (W3 m c (Proc.devRef .tc main_v2)) (constant (F := Ideal) S_ .f32 0x00000000#32) Facts₀.reducesTo_S8x4096x1_S_d0_1_2 Facts₀.h_S_) (constant (F := Ideal) S_ .f32 0x47000000#32))
        (Host.divf (F := Ideal) (Host.reduceAdd (F := Ideal) (W3 m c (Proc.devRef .tc main_v3)) (constant (F := Ideal) S_ .f32 0x00000000#32) Facts₀.reducesTo_S8x4096x1_S_d0_1_2 Facts₀.h_S_) (constant (F := Ideal) S_ .f32 0x47000000#32)) := by
  show StableHlo.after hostOps2 (W3 m c) (Proc.devRef .tc main_v8) = _
  after_results

/-- The first call's output array at the return: the nearest-neighbour column of the first argument against the
    transposed second. -/
theorem W3_main_v2 (c : Dev nD) : W3 m c (Proc.devRef .tc main_v2)
    = Cert.NearestT.column (m ((c : Thread nD τ).loc main_arg0))
        (transpose S8x3x4096 [0, 2, 1] (m ((c : Thread nD τ).loc main_arg1)) Facts₀.transposes_S8x4096x3_S8x3x4096_0_2_1) :=
  calc W3 m c (Proc.devRef .tc main_v2)
    _ = W2 m c (Proc.devRef .tc main_v2) := W3_of_ne m c main_v2 (by decide)
    _ = (dat0 (B1 m) c).arrAt 2 cfg0.N := W2_arr m c 2
    _ = Cert.NearestT.column (B1 m c (Pipeline.arrRef spec0 0)) (B1 m c (Pipeline.arrRef spec0 1)) := final0 (B1 m) c
    _ = _ := by
      rw [show B1 m c (Pipeline.arrRef spec0 0) = m ((c : Thread nD τ).loc main_arg0) from W1_of m c main_arg0 (by decide),
        show B1 m c (Pipeline.arrRef spec0 1) = _ from W1_main_v0 m c]

/-- The second call's: the second argument against the transposed first. -/
theorem W3_main_v3 (c : Dev nD) : W3 m c (Proc.devRef .tc main_v3)
    = Cert.NearestT.column (m ((c : Thread nD τ).loc main_arg1))
        (transpose S8x3x4096 [0, 2, 1] (m ((c : Thread nD τ).loc main_arg0)) Facts₀.transposes_S8x4096x3_S8x3x4096_0_2_1) :=
  calc W3 m c (Proc.devRef .tc main_v3)
    _ = (dat1 (B2 m) c).arrAt 2 cfg1.N := W3_arr m c 2
    _ = Cert.NearestT.column (B2 m c (Pipeline.arrRef spec1 0)) (B2 m c (Pipeline.arrRef spec1 1)) := final1 (B2 m) c
    _ = _ := by
      rw [show B2 m c (Pipeline.arrRef spec1 0) = m ((c : Thread nD τ).loc main_arg1) from
          (W2_of_ne m c main_arg1 (by decide)).trans (W1_of m c main_arg1 (by decide)),
        show B2 m c (Pipeline.arrRef spec1 1) = _ from (W2_of_ne m c main_v1 (by decide)).trans (W1_main_v1 m c)]

/-- The program's result is the symmetric nearest-neighbour distance of its arguments. -/
theorem result_eq (c : Dev nD) : W4 m c (Proc.devRef .tc main_v8)
    = fun _ => Cert.Spec.chamfer (m ((c : Thread nD τ).loc main_arg0)) (m ((c : Thread nD τ).loc main_arg1)) := by
  rw [W4_main_v8, W3_main_v2, W3_main_v3, Cert.ColumnMean.mean_column, Cert.ColumnMean.mean_column, Cert.ColumnMean.sum_of_means]
  rfl

end Cert.KernelIdeal.Hand
end
-- ==== Proof.RefValue.lean ====
/-
  The reference program's result, over the extended reals, is the symmetric nearest-neighbour distance of the
  specification.

  The program forms x2[b,n] = 0 + Σ_d X[b,n,d]², y2[b,m] likewise, the products Σ_d X[b,n,d]·Y[b,m,d], then
  max (x2[b,n] + y2[b,m] − 2·Σ_d X[b,n,d]·Y[b,m,d]) 0 at every (b, n, m); it takes the minimum of these over m, and
  over n, from +∞; and returns (0 + Σ of the first minima)/32768 + (0 + Σ of the second minima)/32768. Each stage is read
  at one index. The second direction meets the specification's ‖Y_m‖² + ‖X_n‖² − 2⟨Y_m, X_n⟩ by commuting the sum of
  the two norms and each product under the inner sum, which needs no finiteness.
-/
import proofs.«150788_j62191126446336_1_alg».proof.Proof.Gen.ReferenceIdeal.Read
import proofs.«150788_j62191126446336_1_alg».proof.Proof.Spec

noncomputable section

namespace Cert.RefValue

open Cert.ReferenceIdeal Cert.ReferenceIdeal.Gen Cert.ReferenceIdeal.Read Cert.Spec
open Idealize.ShloMosaic Idealize.ShloMosaic.ValueIdx

/-- A batch of clouds as the program's argument type. -/
abbrev In : Type := (⟨S8x4096x3, .f32⟩ : BufTy).Contents (Elt Ideal)

/-- The word 0x7F800000 is +∞, the top of the extended reals. -/
theorem ofBits_posInf_f32 : Ideal.ofBits .f32 0x7F800000#32 = ⊤ := by simp [Ideal.ofBits, Ideal.ieee]

/-- x2 at (b, n) is ‖X_n‖² in batch b. -/
theorem x2_at (X : In) (b : Fin 8) (n : Fin 4096) : val_main_v1 (F := Ideal) X (ix2 b n) = sqNorm X b n := by
  rw [val_main_v1_apply, val_main_cst_apply]
  show Ideal.ofBits .f32 0x00000000#32 + _ = _
  rw [Ideal.ofBits_zero_f32, zero_add]
  unfold sqNorm
  refine Finset.sum_congr rfl fun d _ => ?_
  rw [val_main_v0_apply]
  have e : idx_main_v1 (ix2 b n) d = ix3 b n d :=
    funext fun a => by match a with | ⟨0, _⟩ => rfl | ⟨1, _⟩ => rfl | ⟨2, _⟩ => rfl
  rw [e]
  rfl

/-- y2 at (b, m) is ‖Y_m‖² in batch b. -/
theorem y2_at (Y : In) (b : Fin 8) (m : Fin 4096) : val_main_v3 (F := Ideal) Y (ix2 b m) = sqNorm Y b m := by
  rw [val_main_v3_apply, val_main_cst_0_apply]
  show Ideal.ofBits .f32 0x00000000#32 + _ = _
  rw [Ideal.ofBits_zero_f32, zero_add]
  unfold sqNorm
  refine Finset.sum_congr rfl fun d _ => ?_
  rw [val_main_v2_apply]
  have e : idx_main_v3 (ix2 b m) d = ix3 b m d :=
    funext fun a => by match a with | ⟨0, _⟩ => rfl | ⟨1, _⟩ => rfl | ⟨2, _⟩ => rfl
  rw [e]
  rfl

/-- The product at (b, n, m) is ⟨X_n, Y_m⟩ in batch b. -/
theorem xy_at (X Y : In) (b : Fin 8) (n m : Fin 4096) :
    val_main_v4 (F := Ideal) X Y (ix3 b n m) = Cert.Spec.inner X Y b n m := by
  rw [val_main_v4_apply]
  unfold Cert.Spec.inner
  refine Finset.sum_congr rfl fun d _ => ?_
  have el : lidx_main_v4 (ix3 b n m) d = ix3 b n d :=
    funext fun a => by match a with | ⟨0, _⟩ => rfl | ⟨1, _⟩ => rfl | ⟨2, _⟩ => rfl
  have er : ridx_main_v4 (ix3 b n m) d = ix3 b m d :=
    funext fun a => by match a with | ⟨0, _⟩ => rfl | ⟨1, _⟩ => rfl | ⟨2, _⟩ => rfl
  rw [el, er]

/-- The clamped squared distance at (b, n, m). -/
theorem sqDist_at (X Y : In) (b : Fin 8) (n m : Fin 4096) :
    val_main_v14 (F := Ideal) X Y (ix3 b n m) = sqDist X Y b n m := by
  have e1 : idx_main_v5 (idx_main_v7 (ix3 b n m)) = ix2 b n :=
    funext fun a => by match a with | ⟨0, _⟩ => rfl | ⟨1, _⟩ => rfl
  have e2 : idx_main_v6 (idx_main_v8 (ix3 b n m)) = ix2 b m :=
    funext fun a => by match a with | ⟨0, _⟩ => rfl | ⟨1, _⟩ => rfl
  rw [val_main_v14_apply, val_main_v12_apply, val_main_v9_apply, val_main_v11_apply, val_main_v13_apply,
    val_main_cst_2_apply, val_main_v10_apply, val_main_cst_1_apply, val_main_v7_apply, val_main_v5_apply,
    val_main_v8_apply, val_main_v6_apply, e1, e2, x2_at, y2_at, xy_at]
  rfl

/-- A fold of minima from +∞ over a whole finite range is the infimum over it. -/
theorem fold_min_eq_inf {k : Nat} (f : Fin k → EReal) :
    (Finset.univ : Finset (Fin k)).fold (FloatOps.minimumf (F := Ideal) (φ := .f32)) ⊤ f = Finset.univ.inf f := rfl

/-- Dropping the last axis of an [8, 4096, 4096] index set leaves an [8, 4096] one … -/
theorem red2 : S8x4096x4096.Reduces [2] S8x4096 := by decide
/-- … and so does dropping the middle axis. -/
theorem red1 : S8x4096x4096.Reduces [1] S8x4096 := by decide

/-- (b, n) with q inserted on the last axis is (b, n, q). -/
theorem lift2_eq (b : Fin 8) (n q : Fin 4096) : red2.lift (ix2 b n) q = ix3 b n q := by
  funext c
  refine Fin.ext ?_
  match c with
  | ⟨0, _⟩ => rfl
  | ⟨1, _⟩ => rfl
  | ⟨2, _⟩ => rfl

/-- (b, m) with q inserted on the middle axis is (b, q, m). -/
theorem lift1_eq (b : Fin 8) (m q : Fin 4096) : red1.lift (ix2 b m) q = ix3 b q m := by
  funext c
  refine Fin.ext ?_
  match c with
  | ⟨0, _⟩ => rfl
  | ⟨1, _⟩ => rfl
  | ⟨2, _⟩ => rfl

/-- The clamped squared distance is symmetric under exchanging the two clouds together with the two points: the two
    norms' sum commutes, and so does each product under the inner sum. -/
theorem sqDist_swap (P Q : Cloud) (b : Fin 8) (p q : Fin 4096) : sqDist P Q b p q = sqDist Q P b q p := by
  unfold sqDist
  have hi : Cert.Spec.inner P Q b p q = Cert.Spec.inner Q P b q p :=
    Finset.sum_congr rfl fun d _ => mul_comm _ _
  rw [hi, add_comm (sqNorm P b p)]

/-- The minimum over m, at (b, n): the distance from X_n to the nearest point of Y. -/
theorem min_m_at (X Y : In) (b : Fin 8) (n : Fin 4096) :
    val_main_v15 (F := Ideal) X Y (ix2 b n) = nearest X Y b n := by
  unfold val_main_v15
  refine (Host.reduce_eq_fold_single (FloatOps.minimumf (F := Ideal) (φ := .f32)) (val_main_v14 (F := Ideal) X Y)
    (val_main_cst_3 (F := Ideal)) reducesTo_S8x4096x4096_S8x4096_d2 red2 h_S_ (ix2 b n)).trans ?_
  have hinit : val_main_cst_3 (F := Ideal) (Shape.Idx.first h_S_) = ⊤ := ofBits_posInf_f32
  have hf : (val_main_v14 (F := Ideal) X Y ∘ red2.lift (ix2 b n)) = fun q : Fin 4096 => sqDist X Y b n q :=
    funext fun (q : Fin 4096) =>
      (congrArg (val_main_v14 (F := Ideal) X Y) (lift2_eq b n q)).trans (sqDist_at X Y b n q)
  rw [hinit, hf]
  exact fold_min_eq_inf _

/-- The minimum over n, at (b, m): the distance from Y_m to the nearest point of X. -/
theorem min_n_at (X Y : In) (b : Fin 8) (m : Fin 4096) :
    val_main_v16 (F := Ideal) X Y (ix2 b m) = nearest Y X b m := by
  unfold val_main_v16
  refine (Host.reduce_eq_fold_single (FloatOps.minimumf (F := Ideal) (φ := .f32)) (val_main_v14 (F := Ideal) X Y)
    (val_main_cst_4 (F := Ideal)) reducesTo_S8x4096x4096_S8x4096_d1 red1 h_S_ (ix2 b m)).trans ?_
  have hinit : val_main_cst_4 (F := Ideal) (Shape.Idx.first h_S_) = ⊤ := ofBits_posInf_f32
  have hf : (val_main_v14 (F := Ideal) X Y ∘ red1.lift (ix2 b m)) = fun q : Fin 4096 => sqDist Y X b m q :=
    funext fun (q : Fin 4096) =>
      ((congrArg (val_main_v14 (F := Ideal) X Y) (lift1_eq b m q)).trans (sqDist_at X Y b q m)).trans
        (sqDist_swap X Y b q m)
  rw [hinit, hf]
  exact fold_min_eq_inf _

/-- The first total: 0 plus the sum over all points of X of the distance to the nearest point of Y. -/
theorem total_m (X Y : In) (i : S_.Idx) :
    val_main_v17 (F := Ideal) X Y i
      = Ideal.ofBits .f32 0x00000000#32 + ∑ b : Fin 8, ∑ p : Fin 4096, nearest X Y b p := by
  rw [val_main_v17_apply, val_main_cst_5_apply, sum_idx2]
  exact congrArg (_ + ·) (Finset.sum_congr rfl fun b _ => Finset.sum_congr rfl fun p _ => min_m_at X Y b p)

/-- The second total: 0 plus the sum over all points of Y of the distance to the nearest point of X. -/
theorem total_n (X Y : In) (i : S_.Idx) :
    val_main_v19 (F := Ideal) X Y i
      = Ideal.ofBits .f32 0x00000000#32 + ∑ b : Fin 8, ∑ p : Fin 4096, nearest Y X b p := by
  rw [val_main_v19_apply, val_main_cst_7_apply, sum_idx2]
  exact congrArg (_ + ·) (Finset.sum_congr rfl fun b _ => Finset.sum_congr rfl fun p _ => min_n_at X Y b p)

/-- The first mean. -/
theorem mean_m (X Y : In) (i : S_.Idx) : val_main_v18 (F := Ideal) X Y i = meanNearest X Y := by
  rw [val_main_v18_apply, total_m, val_main_cst_6_apply]
  rfl

/-- The second mean. -/
theorem mean_n (X Y : In) (i : S_.Idx) : val_main_v20 (F := Ideal) X Y i = meanNearest Y X := by
  rw [val_main_v20_apply, total_n, val_main_cst_8_apply]
  rfl

/-- THE REFERENCE'S VALUE: the program's result is, at its one index, the symmetric distance of the two batches. -/
theorem reference_value (X Y : (⟨Cert.ReferenceIdeal.S8x4096x3, .f32⟩ : BufTy).Contents (Elt Ideal)) :
    Cert.ReferenceIdeal.Read.val_main_v21 (F := Ideal) X Y = fun _ => Cert.Spec.chamfer X Y := by
  funext i
  rw [val_main_v21_apply, mean_m, mean_n]
  rfl

end Cert.RefValue

end
-- ==== Proof.lean ====
/-
  The certificate of a tiled symmetric nearest-neighbour (Chamfer) distance kernel against its jnp reference.

  Both programs take two batches X, Y of 8 × 4096 points of ℝ³ and return
    mean_p min_q max(‖X_p‖² + ‖Y_q‖² − 2⟨X_p, Y_q⟩, 0) + mean_q min_p (the same).
  The reference forms the whole [8, 4096, 4096] table once and reduces it along either axis. The kernel program
  transposes each cloud on the host and calls one tiled kernel twice, with the clouds' roles exchanged: over a grid
  (batch, row tile, column tile) it keeps a running row minimum in a scratch buffer across the four column tiles of a
  row tile and stores it at the last. Over the extended reals a change of float format is the identity, a minimum
  taken tile by tile from +∞ is the minimum over all columns, and the second direction differs from the reference's
  only by the order of two summands and of the factors of a product: the two results are equal (`Cert.Spec.chamfer`).
  The three frames: each kernel program runs to the end through its two calls leaving its arguments as launched (at
  words and at extended reals alike); the reference is a straight line of host operations.
-/
import proofs.«150788_j62191126446336_1_alg».proof.Defs
import proofs.«150788_j62191126446336_1_alg».proof.Proof.Gen.Kernel
import proofs.«150788_j62191126446336_1_alg».proof.Proof.Gen.KernelIdeal
import proofs.«150788_j62191126446336_1_alg».proof.Proof.Gen.ReferenceIdeal
import proofs.«150788_j62191126446336_1_alg».proof.Proof.Gen.ReferenceIdeal.Run
import proofs.«150788_j62191126446336_1_alg».proof.Proof.Gen.ReferenceIdeal.Read
import proofs.«150788_j62191126446336_1_alg».proof.Proof.Gen.Pre_finite_inputs
import proofs.«150788_j62191126446336_1_alg».proof.Proof.Kernel.Run
import proofs.«150788_j62191126446336_1_alg».proof.Proof.KernelIdeal.Run
import proofs.«150788_j62191126446336_1_alg».proof.Proof.KernelIdeal.Result
import proofs.«150788_j62191126446336_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k : Cert.frame_Kernel := fun m ρ _ => Cert.Kernel.Hand.frame m ρ

/-- So does the program read over the extended reals. -/
theorem frame_ki : Cert.frame_KernelIdeal := fun m ρ _ => Cert.KernelIdeal.Hand.frame m ρ

/-- The reference is a line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end with the symmetric nearest-neighbour distance of the arguments. -/
theorem algebraic : Cert.algebraic_KernelIdeal_ReferenceIdeal := by
  intro m ρ m' ρ' _ hagree
  refine ⟨fun c => fun _ => Cert.Spec.chamfer (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c =>
      ⟨(h c _ (Cert.KernelIdeal.Hand.mem_uc Cert.KernelIdeal.main_v8 (by decide))).trans (Cert.KernelIdeal.Hand.result_eq m c),
       (h c _ (Cert.KernelIdeal.Hand.mem_uc Cert.KernelIdeal.main_arg0 (by decide))).trans (Cert.KernelIdeal.Hand.W4_main_arg0 m c),
       (h c _ (Cert.KernelIdeal.Hand.mem_uc Cert.KernelIdeal.main_arg1 (by decide))).trans (Cert.KernelIdeal.Hand.W4_main_arg1 m c)⟩)
      (Cert.KernelIdeal.Hand.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v21_eq, Cert.RefValue.reference_value, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
